-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16 : Shape := ⟨2, ![1024, 16]⟩
abbrev S16x100000 : Shape := ⟨2, ![16, 100000]⟩
abbrev S100000 : Shape := ⟨1, ![100000]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S16x100000 : S_.BroadcastsInDim S16x100000 (![] : Fin 0 → Fin S16x100000.rank)
  reducesTo_S16x100000_S_d0_1 : S16x100000.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S1024x16 .f32) (main_arg1 : FVec F S16x100000 .f32) (main_arg2 : FVec F S100000 .f32) : IVec S_ 1 :=
  let main_v0 : FVec F S1024x16 .f32 := Host.absf main_arg0
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_v4 : FVec F S16x100000 .f32 := Host.absf main_arg1
  let main_cst_0 : FVec F S_ .f32 := constant S_ .f32 0x7F800000#32
  let main_v5 : FVec F S16x100000 .f32 := broadcastInDim S16x100000 ![] bcast_S_S16x100000 main_cst_0
  let main_v6 : IVec S16x100000 1 := cmpf .olt main_v4 main_v5
  let main_c_1 : IVec S_ 1 := constantI S_ 1 1#1
  let main_v7 : IVec S_ 1 := (fun x v => Host.reduce IntOp.andi x v reducesTo_S16x100000_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S1024x16 : Shape := ⟨2, ![1024, 16]⟩
abbrev S16x100000 : Shape := ⟨2, ![16, 100000]⟩
abbrev S100000 : Shape := ⟨1, ![100000]⟩
abbrev S16x1024 : Shape := ⟨2, ![16, 1024]⟩
abbrev S100000x16 : Shape := ⟨2, ![100000, 16]⟩
abbrev S100000x1 : Shape := ⟨2, ![100000, 1]⟩
abbrev S8x1024 : Shape := ⟨2, ![8, 1024]⟩
abbrev S100000x1024 : Shape := ⟨2, ![100000, 1024]⟩
abbrev S1024x100000 : Shape := ⟨2, ![1024, 100000]⟩
abbrev S2000x16 : Shape := ⟨2, ![2000, 16]⟩
abbrev S2000x1 : Shape := ⟨2, ![2000, 1]⟩
abbrev S2000x1024 : Shape := ⟨2, ![2000, 1024]⟩
abbrev S1024 : Shape := ⟨1, ![1024]⟩
abbrev S1x1024 : Shape := ⟨2, ![1, 1024]⟩

abbrev nBuf : Space → Nat
  | .hbm => 10
  | .vmem => 16
  | .smem => 0
  | _ => 0

abbrev bufTy : (tb : Table) → Fin (tcTables nBuf tb) → BufTy
  | .hbm, ⟨0, _⟩ => ⟨S1024x16, .f32⟩
  | .hbm, ⟨1, _⟩ => ⟨S16x100000, .f32⟩
  | .hbm, ⟨2, _⟩ => ⟨S100000, .f32⟩
  | .hbm, ⟨3, _⟩ => ⟨S16x1024, .f32⟩
  | .hbm, ⟨4, _⟩ => ⟨S100000x16, .f32⟩
  | .hbm, ⟨5, _⟩ => ⟨S100000x1, .f32⟩
  | .hbm, ⟨6, _⟩ => ⟨S8x1024, .f32⟩
  | .hbm, ⟨7, _⟩ => ⟨S8x1024, .f32⟩
  | .hbm, ⟨8, _⟩ => ⟨S100000x1024, .f32⟩
  | .hbm, ⟨9, _⟩ => ⟨S1024x100000, .f32⟩
  | .local _ .vmem, ⟨0, _⟩ => ⟨S2000x16, .f32⟩
  | .local _ .vmem, ⟨1, _⟩ => ⟨S2000x16, .f32⟩
  | .local _ .vmem, ⟨2, _⟩ => ⟨S16x1024, .f32⟩
  | .local _ .vmem, ⟨3, _⟩ => ⟨S2000x1, .f32⟩
  | .local _ .vmem, ⟨4, _⟩ => ⟨S2000x1, .f32⟩
  | .local _ .vmem, ⟨5, _⟩ => ⟨S8x1024, .f32⟩
  | .local _ .vmem, ⟨6, _⟩ => ⟨S8x1024, .f32⟩
  | .local _ .vmem, ⟨7, _⟩ => ⟨S2000x16, .f32⟩
  | .local _ .vmem, ⟨8, _⟩ => ⟨S2000x16, .f32⟩
  | .local _ .vmem, ⟨9, _⟩ => ⟨S16x1024, .f32⟩
  | .local _ .vmem, ⟨10, _⟩ => ⟨S2000x1, .f32⟩
  | .local _ .vmem, ⟨11, _⟩ => ⟨S2000x1, .f32⟩
  | .local _ .vmem, ⟨12, _⟩ => ⟨S8x1024, .f32⟩
  | .local _ .vmem, ⟨13, _⟩ => ⟨S8x1024, .f32⟩
  | .local _ .vmem, ⟨14, _⟩ => ⟨S2000x1024, .f32⟩
  | .local _ .vmem, ⟨15, _⟩ => ⟨S2000x1024, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3_0 : Ref sig .tc := ⟨.hbm, 6, rfl⟩
abbrev main_call0_v3_1 : Ref sig .tc := ⟨.hbm, 7, rfl⟩
abbrev main_call0_v4 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S1024x16_S16x1024_1_0 : S1024x16.Transposes [1, 0] S16x1024
  transposes_S16x100000_S100000x16_1_0 : S16x100000.Transposes [1, 0] S100000x16
  shapeCasts_S100000_S100000x1 : S100000.ShapeCasts S100000x1
  transposes_S100000x1024_S1024x100000_1_0 : S100000x1024.Transposes [1, 0] S1024x100000
  inb_S8x1024_S8x1024_0_0 : ∀ a, (![0, 0] : Fin 2 → Nat) a + S8x1024.size a ≤ S8x1024.size a
  h_S8x1024 : 0 < S8x1024.numel
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x1024 : S2000x1.Broadcasts S2000x1024
  reduces_S2000x1024_S1024 : S2000x1024.Reduces [0] S1024
  shapeCasts_S1024_S1x1024 : S1024.ShapeCasts S1x1024
  inb_S8x1024_S1x1024_0_0 : ∀ a, (![0, 0] : Fin 2 → Nat) a + S1x1024.size a ≤ S8x1024.size a
  h_S1x1024 : 0 < S1x1024.numel
  shapeCasts_S1x1024_S1x1024 : S1x1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  dot_S2000x16_S16x1024_S2000x1024_1_0_0_1_n_n_wf : DotDims.WF S2000x16 S16x1024 S2000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S100000x16.size a
  hwx0_0 : ∀ i : grid0.Coords, EltTy.bits .f32 = 32 ∨ (Rect.block (s := S100000x16) S2000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .f32 = 32 ∨ (Rect.block (s := S16x1024) S16x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S8x1024.size a
  hwx0_3 : ∀ i : grid0.Coords, EltTy.bits .f32 = 32 ∨ (Rect.block (s := S8x1024) S8x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S8x1024.size a
  hwx0_4 : ∀ i : grid0.Coords, EltTy.bits .f32 = 32 ∨ (Rect.block (s := S8x1024) S8x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1024.size a ≤ S16x1024.size a
  hwx1_1 : ∀ i : grid1.Coords, EltTy.bits .f32 = 32 ∨ (Rect.block (s := S16x1024) S16x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x1024.size a ≤ S8x1024.size a
  hwx1_3 : ∀ i : grid1.Coords, EltTy.bits .f32 = 32 ∨ (Rect.block (s := S8x1024) S8x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x1024.size a ≤ S8x1024.size a
  hwx1_4 : ∀ i : grid1.Coords, EltTy.bits .f32 = 32 ∨ (Rect.block (s := S8x1024) S8x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1024.size a ≤ S100000x1024.size a
  hwx1_5 : ∀ i : grid1.Coords, EltTy.bits .f32 = 32 ∨ (Rect.block (s := S100000x1024) S2000x1024.size (cc1_transform_5 i) (hinb1_5 i)).WholeWords (EltTy.packing .f32)

variable [Facts₀]

def dot_S2000x16_S16x1024_S2000x1024_1_0_0_1_n_n : DotDims S2000x16 S16x1024 S2000x1024 where
  lhsContracting := [1]
  rhsContracting := [0]
  lhsNonContracting := [0]
  rhsNonContracting := [1]
  lhsBatch := []
  rhsBatch := []
  wf := dot_S2000x16_S16x1024_S2000x1024_1_0_0_1_n_n_wf

abbrev win0_0 : Pipeline.Window sig grid0 :=
  Pipeline.Window.ofSpec (Memref.whole main_call0_v1) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3_0) S8x1024.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3_1) S8x1024.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v1) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S16x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v3_0) S8x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3_1) S8x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v4) S2000x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1024x16 : Shape := ⟨2, ![1024, 16]⟩
abbrev S16x100000 : Shape := ⟨2, ![16, 100000]⟩
abbrev S100000 : Shape := ⟨1, ![100000]⟩
abbrev S1024x100000 : Shape := ⟨2, ![1024, 100000]⟩
abbrev S1x100000 : Shape := ⟨2, ![1, 100000]⟩
abbrev S_ : Shape := ⟨0, ![]⟩
abbrev S1024 : Shape := ⟨1, ![1024]⟩
abbrev S1024x1 : Shape := ⟨2, ![1024, 1]⟩

abbrev nBuf : Space → Nat
  | .hbm => 29
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S16x100000, .f32⟩
  | .hbm, ⟨2, _⟩ => ⟨S100000, .f32⟩
  | .hbm, ⟨3, _⟩ => ⟨S1024x100000, .f32⟩
  | .hbm, ⟨4, _⟩ => ⟨S1x100000, .f32⟩
  | .hbm, ⟨5, _⟩ => ⟨S1024x100000, .f32⟩
  | .hbm, ⟨6, _⟩ => ⟨S1024x100000, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1024x1, .f32⟩
  | .hbm, ⟨13, _⟩ => ⟨S1024x100000, .f32⟩
  | .hbm, ⟨14, _⟩ => ⟨S1024x100000, .f32⟩
  | .hbm, ⟨15, _⟩ => ⟨S1024x100000, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S1024x100000, .f32⟩
  | .hbm, ⟨20, _⟩ => ⟨S1024x100000, .f32⟩
  | .hbm, ⟨21, _⟩ => ⟨S_, .f32⟩
  | .hbm, ⟨22, _⟩ => ⟨S1024x100000, .f32⟩
  | .hbm, ⟨23, _⟩ => ⟨S1024x100000, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S1024x100000, .f32⟩
  | .hbm, ⟨28, _⟩ => ⟨S1024x100000, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  reducesTo_S1024x100000_S1024_d1 : S1024x100000.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  bcast_S_S1024x100000 : S_.BroadcastsInDim S1024x100000 (![] : Fin 0 → Fin S1024x100000.rank)
  dot_S1024x16_S16x100000_S1024x100000_1_0_0_1_n_n_wf : DotDims.WF S1024x16 S16x100000 S1024x100000 [1] [0] [0] [1] [] []

variable [Facts₀]

def dot_S1024x16_S16x100000_S1024x100000_1_0_0_1_n_n : DotDims S1024x16 S16x100000 S1024x100000 where
  lhsContracting := [1]
  rhsContracting := [0]
  lhsNonContracting := [0]
  rhsNonContracting := [1]
  lhsBatch := []
  rhsBatch := []
  wf := dot_S1024x16_S16x100000_S1024x100000_1_0_0_1_n_n_wf

class Facts : Prop extends Facts₀ where

variable [Facts]
-- ==== Proof.Operands.lean ====
/-
  The five arrays the two sweeps read, as a region finds them in memory, named at their literal shapes:
  wt(n, k) the transposed weights (100000 × 16), st(k, b) the transposed states (16 × 1024), bt(n, 0) the bias as a column
  (100000 × 1), and the two statistics arrays (8 × 1024) of which only row 0 is used.
  The kernel's logit of action n for batch column b is l(n, b) = Σ_k wt(n, k) · st(k, b) + bt(n, 0).
-/
import proofs.«100738_g11304353923510_cont_sun_m_672_3_alg».proof.Proof.Gen.KernelIdeal.Frame
import Idealize.ShloMosaic.Lib.ValueIdx

noncomputable section

open scoped BigOperators

namespace Cert.KernelIdeal.Operands

open Idealize.ShloMosaic Idealize.ShloMosaic.TcCoe Idealize.ShloMosaic.ValueIdx Idealize.SL.Sem
open Cert.KernelIdeal

variable (V : (c : Dev nD) → (b : Ref sig .tc) → Buf (Elt Ideal) ((c : Thread nD τ).loc b))

/-- The transposed weights. -/
abbrev wt (c : Dev nD) : (⟨S100000x16, .f32⟩ : BufTy).Contents (Elt Ideal) := V c main_call0_v1
/-- The transposed states. -/
abbrev st (c : Dev nD) : (⟨S16x1024, .f32⟩ : BufTy).Contents (Elt Ideal) := V c main_call0_v0
/-- The bias as a column. -/
abbrev bt (c : Dev nD) : (⟨S100000x1, .f32⟩ : BufTy).Contents (Elt Ideal) := V c main_call0_v2
/-- The running maxima (row 0). -/
abbrev mstat (c : Dev nD) : (⟨S8x1024, .f32⟩ : BufTy).Contents (Elt Ideal) := V c main_call0_v3_0
/-- The running sums of exponentials (row 0). -/
abbrev dstat (c : Dev nD) : (⟨S8x1024, .f32⟩ : BufTy).Contents (Elt Ideal) := V c main_call0_v3_1

/-- l(n, b) = Σ_k wt(n, k) · st(k, b) + bt(n, 0). -/
def klogit (c : Dev nD) (n : Fin 100000) (b : Fin 1024) : EReal :=
  (∑ k : Fin 16, wt V c (ix2 n k) * st V c (ix2 k b)) + bt V c (ix2 n 0)

end Cert.KernelIdeal.Operands

end
-- ==== Proof.SoftmaxLaw.lean ====
/-
  The softmax of finitely many REAL logits, and the three ways the two programs compute it on the extended reals.

  For logits f : Fin N → ℝ (N > 0) write M = max f, S = Σ_n e^{f n − M} (S ≥ 1 > 0) and softmax f n = e^{f n − M} / S.
  * Two sweeps: e^{f n − M} · (1 / S).
  * The reference's form: p_n = 1 · (e^{f n − M} / (0 + S)), then p_n / (0 + Σ_k p_k); over the reals Σ_k p_k = S / S = 1.
  * One sweep over consecutive tiles ("online"): after the first K logits keep m_K = max_{n<K} f n and
    d_K = Σ_{n<K} e^{f n − m_K}; a further tile of T logits gives m_{K+T} = max m_K (tile max) and
    d_{K+T} = d_K · e^{m_K − m_{K+T}} + Σ_{tile} e^{f − m_{K+T}}, because e^{a−b}·e^{b−c} = e^{a−c}.
  Every quantity here is a real, so each extended-real operation is the coercion of the real one.
-/
import Idealize.ShloMosaic.PureOps.Ideal

noncomputable section

open scoped BigOperators

namespace Cert.SoftmaxLaw

open Idealize.ShloMosaic

/-! ## Coercion of finite sums and of the larger of two reals -/

/-- A finite sum of coerced reals is the coerced sum. -/
private theorem coe_sum {ι : Type*} (s : Finset ι) (g : ι → ℝ) :
    ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- The coercion ℝ → EReal is monotone, so it commutes with max. -/
private theorem coe_max' (a b : ℝ) : ((max a b : ℝ) : EReal) = max (a : EReal) (b : EReal) :=
  EReal.coe_strictMono.monotone.map_max

/-! ## Row statistics -/

section Row
variable {N : ℕ} [NeZero N]

/-- The largest of the logits. -/
def rmax (f : Fin N → ℝ) : ℝ := Finset.univ.sup' ⟨0, Finset.mem_univ _⟩ f
/-- S = Σ_n e^{f n − max f}. -/
def rsum (f : Fin N → ℝ) : ℝ := ∑ n, Real.exp (f n - rmax f)
/-- softmax f n = e^{f n − max f} / S. -/
def softmax (f : Fin N → ℝ) (n : Fin N) : ℝ := Real.exp (f n - rmax f) / rsum f

theorem le_rmax (f : Fin N → ℝ) (n : Fin N) : f n ≤ rmax f :=
  Finset.le_sup'_of_le f (Finset.mem_univ n) le_rfl
theorem exists_eq_rmax (f : Fin N → ℝ) : ∃ n, f n = rmax f := by
  obtain ⟨n, -, h⟩ := Finset.exists_mem_eq_sup' (⟨0, Finset.mem_univ _⟩ : (Finset.univ : Finset (Fin N)).Nonempty) f
  exact ⟨n, h.symm⟩
/-- Every term of S is positive and there is at least one. -/
theorem rsum_pos (f : Fin N → ℝ) : 0 < rsum f :=
  Finset.sum_pos (fun n _ => Real.exp_pos _) ⟨0, Finset.mem_univ _⟩

/-- The fold of max from −∞ over the coerced logits is the coerced maximum. -/
theorem fold_max_coe (f : Fin N → ℝ) :
    Finset.univ.fold max (⊥ : EReal) (fun n => (f n : EReal)) = (rmax f : EReal) := by
  apply le_antisymm
  · -- every coerced logit is below the coerced maximum
    exact (Finset.fold_max_le _).2 ⟨bot_le, fun n _ => EReal.coe_le_coe_iff.2 (le_rmax f n)⟩
  · -- the maximum is attained, so it is below the fold
    obtain ⟨n, hn⟩ := exists_eq_rmax f
    exact (Finset.le_fold_max _).2 (Or.inr ⟨n, Finset.mem_univ n, by rw [hn]⟩)

/-- Σ_k e^{f k − M}, computed on the extended reals, is the coerced S. -/
private theorem sum_exp_coe (f : Fin N → ℝ) :
    ∑ k, Ideal.exp ((f k : EReal) - (rmax f : EReal)) = (rsum f : EReal) := by
  simp only [← EReal.coe_sub, Ideal.exp_coe]
  exact coe_sum _ _

/-- e^{f k − M} / S on the extended reals is the coerced softmax: S ≠ 0, so the quotient is the real one. -/
private theorem div_exp_coe (f : Fin N → ℝ) (k : Fin N) :
    Ideal.div (Ideal.exp ((f k : EReal) - (rmax f : EReal))) (rsum f : EReal) = (softmax f k : EReal) := by
  have hS : rsum f ≠ 0 := (rsum_pos f).ne'
  rw [← EReal.coe_sub, Ideal.exp_coe, Ideal.div_coe hS, ← EReal.coe_mul, mul_one_div, softmax]

/-- The softmax sums to one: (Σ e_k) / S = S / S. -/
private theorem sum_softmax (f : Fin N → ℝ) : ∑ k, softmax f k = 1 := by
  have hS : rsum f ≠ 0 := (rsum_pos f).ne'
  unfold softmax
  rw [← Finset.sum_div]
  exact div_self hS

/-- Two sweeps: e^{f n − M} · (1 / S) is the softmax. -/
theorem emit_form (f : Fin N → ℝ) (n : Fin N) :
    Ideal.exp ((f n : EReal) - (rmax f : EReal)) * Ideal.div 1 (rsum f : EReal) = (softmax f n : EReal) := by
  have hS : rsum f ≠ 0 := (rsum_pos f).ne'
  rw [← EReal.coe_sub, Ideal.exp_coe, Ideal.div_coe hS, one_mul, ← EReal.coe_mul, mul_one_div, softmax]

/-- The reference's form: softmax, times one, renormalised by its own sum (which is 1). -/
theorem ref_form (f : Fin N → ℝ) (n : Fin N) :
    Ideal.div ((1 : EReal) * Ideal.div (Ideal.exp ((f n : EReal) - (rmax f : EReal)))
          ((0 : EReal) + ∑ k, Ideal.exp ((f k : EReal) - (rmax f : EReal))))
        ((0 : EReal) + ∑ k, (1 : EReal) * Ideal.div (Ideal.exp ((f k : EReal) - (rmax f : EReal)))
          ((0 : EReal) + ∑ k', Ideal.exp ((f k' : EReal) - (rmax f : EReal))))
      = (softmax f n : EReal) := by
  -- each inner quotient 1 · (e_k / (0 + S)) is the coerced softmax
  have hq : ∀ k, (1 : EReal) * Ideal.div (Ideal.exp ((f k : EReal) - (rmax f : EReal)))
      ((0 : EReal) + ∑ k', Ideal.exp ((f k' : EReal) - (rmax f : EReal))) = (softmax f k : EReal) := by
    intro k
    rw [sum_exp_coe, zero_add, one_mul, div_exp_coe]
  simp only [hq]
  -- the renormalising sum is 0 + 1, and x / 1 = x
  rw [coe_sum, sum_softmax, zero_add, Ideal.div_coe one_ne_zero, div_one, EReal.coe_one, mul_one]

end Row

/-! ## One sweep over consecutive tiles -/

/-- m_K: the largest of f 0 … f (K−1) (0 when K = 0). -/
def pmax (f : ℕ → ℝ) (K : ℕ) : ℝ :=
  if h : 0 < K then (Finset.range K).sup' ⟨0, Finset.mem_range.2 h⟩ f else 0
/-- d_K = Σ_{n<K} e^{f n − m_K}. -/
def psum (f : ℕ → ℝ) (K : ℕ) : ℝ := ∑ n ∈ Finset.range K, Real.exp (f n - pmax f K)

/-- m_K bounds the first K logits. -/
private theorem le_pmax (f : ℕ → ℝ) {K n : ℕ} (hn : n < K) : f n ≤ pmax f K := by
  have hK : 0 < K := Nat.zero_lt_of_lt hn
  rw [pmax, dif_pos hK]
  exact Finset.le_sup'_of_le f (Finset.mem_range.2 hn) le_rfl

/-- m_K is one of the first K logits. -/
private theorem exists_eq_pmax (f : ℕ → ℝ) {K : ℕ} (hK : 0 < K) : ∃ n, n < K ∧ f n = pmax f K := by
  rw [pmax, dif_pos hK]
  obtain ⟨n, hn, e⟩ := Finset.exists_mem_eq_sup' (⟨0, Finset.mem_range.2 hK⟩ : (Finset.range K).Nonempty) f
  exact ⟨n, Finset.mem_range.1 hn, e.symm⟩

/-- A bound of the first K logits that is one of them is m_K. -/
private theorem pmax_unique (f : ℕ → ℝ) {K : ℕ} {m : ℝ} (hle : ∀ n, n < K → f n ≤ m)
    (hex : ∃ n, n < K ∧ f n = m) : pmax f K = m := by
  obtain ⟨n, hn, e⟩ := hex
  apply le_antisymm
  · obtain ⟨j, hj, ej⟩ := exists_eq_pmax f (Nat.zero_lt_of_lt hn)
    rw [← ej]
    exact hle j hj
  · rw [← e]
    exact le_pmax f hn

/-- The first T logits, read as a row of length T, have maximum m_T. -/
private theorem pmax_eq_rmax_tile (f : ℕ → ℝ) (T : ℕ) [NeZero T] :
    pmax f T = rmax (fun i : Fin T => f i) := by
  apply pmax_unique
  · intro n hn
    exact le_rmax (fun i : Fin T => f i) ⟨n, hn⟩
  · obtain ⟨i, hi⟩ := exists_eq_rmax (fun i : Fin T => f i)
    exact ⟨i, i.2, hi⟩

/-- m_{K+T} is the larger of m_K and the maximum of the tile f K … f (K+T−1). -/
private theorem pmax_add (f : ℕ → ℝ) (K T : ℕ) (hK : 0 < K) [NeZero T] :
    pmax f (K + T) = max (pmax f K) (rmax (fun i : Fin T => f (K + i))) := by
  apply pmax_unique
  · intro n hn
    by_cases h : n < K
    · exact le_max_of_le_left (le_pmax f h)
    · -- n = K + (n − K) lies in the tile
      have hlt : n - K < T := by omega
      have hn' : K + (n - K) = n := by omega
      have := le_rmax (fun i : Fin T => f (K + i)) ⟨n - K, hlt⟩
      simp only [hn'] at this
      exact le_max_of_le_right this
  · rcases max_choice (pmax f K) (rmax (fun i : Fin T => f (K + i))) with h | h
    · obtain ⟨n, hn, e⟩ := exists_eq_pmax f hK
      exact ⟨n, by omega, e.trans h.symm⟩
    · obtain ⟨i, hi⟩ := exists_eq_rmax (fun i : Fin T => f (K + i))
      exact ⟨K + i, by have := i.2; omega, hi.trans h.symm⟩

/-- d_{K+T} = d_K · e^{m_K − m_{K+T}} + Σ_{tile} e^{f − m_{K+T}}: split the range at K and use
    e^{f n − m_K} · e^{m_K − m_{K+T}} = e^{f n − m_{K+T}}. -/
private theorem psum_add (f : ℕ → ℝ) (K T : ℕ) :
    psum f K * Real.exp (pmax f K - pmax f (K + T)) + ∑ i : Fin T, Real.exp (f (K + i) - pmax f (K + T))
      = psum f (K + T) := by
  unfold psum
  rw [Finset.sum_range_add, Finset.sum_mul,
    Finset.sum_range (fun x => Real.exp (f (K + x) - pmax f (K + T)))]
  congr 1
  apply Finset.sum_congr rfl
  intro n _
  rw [← Real.exp_add, sub_add_sub_cancel]

/-- First tile: its maximum (a fold of max from −∞), joined with −∞, is m_T. -/
theorem online_first_max (f : ℕ → ℝ) (T : ℕ) [NeZero T] :
    max (⊥ : EReal) (Finset.univ.fold max (⊥ : EReal) (fun i : Fin T => (f i : EReal))) = (pmax f T : EReal) := by
  rw [max_bot_left, fold_max_coe (fun i : Fin T => f i), pmax_eq_rmax_tile]
/-- First tile: its sum of exponentials is d_T. -/
theorem online_first_sum (f : ℕ → ℝ) (T : ℕ) [NeZero T] :
    ∑ i : Fin T, Ideal.exp ((f i : EReal) - (pmax f T : EReal)) = (psum f T : EReal) := by
  simp only [← EReal.coe_sub, Ideal.exp_coe]
  rw [coe_sum, psum, Finset.sum_range]
/-- A further tile: m_{K+T} = max m_K (tile max). -/
theorem online_step_max (f : ℕ → ℝ) (K T : ℕ) (hK : 0 < K) [NeZero T] :
    max (pmax f K : EReal) (Finset.univ.fold max (⊥ : EReal) (fun i : Fin T => (f (K + i) : EReal)))
      = (pmax f (K + T) : EReal) := by
  rw [fold_max_coe (fun i : Fin T => f (K + i)), ← coe_max', pmax_add f K T hK]
/-- A further tile: d_{K+T} = d_K · e^{m_K − m_{K+T}} + Σ_{tile} e^{f − m_{K+T}}. -/
theorem online_step_sum (f : ℕ → ℝ) (K T : ℕ) (hK : 0 < K) [NeZero T] :
    (psum f K : EReal) * Ideal.exp ((pmax f K : EReal) - (pmax f (K + T) : EReal))
        + ∑ i : Fin T, Ideal.exp ((f (K + i) : EReal) - (pmax f (K + T) : EReal))
      = (psum f (K + T) : EReal) := by
  simp only [← EReal.coe_sub, Ideal.exp_coe]
  rw [coe_sum, ← EReal.coe_mul, ← EReal.coe_add, psum_add]

/-- After all N logits the running statistics are the row's. -/
theorem pmax_eq_rmax {N : ℕ} [NeZero N] (g : Fin N → ℝ) :
    pmax (fun n => if h : n < N then g ⟨n, h⟩ else 0) N = rmax g := by
  apply pmax_unique
  · intro n hn
    simp only [dif_pos hn]
    exact le_rmax g ⟨n, hn⟩
  · obtain ⟨i, hi⟩ := exists_eq_rmax g
    refine ⟨i, i.2, ?_⟩
    simp only [dif_pos i.2, Fin.eta]
    exact hi
theorem psum_eq_rsum {N : ℕ} [NeZero N] (g : Fin N → ℝ) :
    psum (fun n => if h : n < N then g ⟨n, h⟩ else 0) N = rsum g := by
  rw [psum, pmax_eq_rmax, Finset.sum_range, rsum]
  apply Finset.sum_congr rfl
  intro i _
  simp only [dif_pos i.2, Fin.eta]

end Cert.SoftmaxLaw

end
-- ==== Proof.StatsPieces.lean ====
/-
  What one grid point of the first sweep leaves in row 0 of the two statistics blocks.
  The body updates only row 0: the new maximum is max(old maximum, tile maximum) and the new sum is
  old sum · e^{old max − new max} + Σ_tile e^{l − new max}. At the first point the body first resets both blocks whole
  (to −∞ and to 0) and the "old" row it then reads back is a row of that reset; at a later point the old row is the row the
  point before left. Rows 1 … 7 are never read again.
-/
import proofs.«100738_g11304353923510_cont_sun_m_672_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.StatsPieces

open Idealize.ShloMosaic Idealize.ShloMosaic.TcCoe Idealize.ShloMosaic.Tactic Idealize.ShloMosaic.ValueIdx Idealize.SL.Sem
open Cert.KernelIdeal Cert.KernelIdeal.Gen

variable {F : FTy → Type} [FloatOps F]

theorem hz : (![0, 0] : Fin 2 → Nat) = fun _ => 0 := funext fun a => by fin_cases a <;> rfl

/-- Row 0 of the 8 × 1024 block, as a rectangle: its element (0, q) is the block's element (0, q). -/
theorem row0_emb (q : Fin 1024) : r1_3.emb (ix2 (0 : Fin 1) q) = (ix2 (0 : Fin 8) q : S8x1024.Idx) := by
  funext a; apply Fin.ext
  match a with
  | ⟨0, _⟩ => rfl
  | ⟨1, _⟩ => show 0 + 1 * q.val = q.val; omega

/-- The old row a point reads: row 0 of the block's contents. -/
abbrev oldRow (X : Vec F S8x1024 .f32) : Vec F S1x1024 .f32 := View.ld X r1_3

theorem oldRow_apply (X : Vec F S8x1024 .f32) (q : Fin 1024) : oldRow X (ix2 0 q) = X (ix2 0 q) :=
  congrArg X (row0_emb q)

/-- First point, maxima: row 0 ends at the maximum payload over the reset row. -/
theorem outA3_apply (c : Dev nD) (i : grid0.Coords) (a1 : Memref sig .tc .vmem S2000x16 .f32) (h1 : a1.IsWhole) (a2 : Memref sig .tc .vmem S16x1024 .f32) (h2 : a2.IsWhole) (a3 : Memref sig .tc .vmem S2000x1 .f32) (h3 : a3.IsWhole) (a4 : Memref sig .tc .vmem S8x1024 .f32) (h4 : a4.IsWhole) (a5 : Memref sig .tc .vmem S8x1024 .f32) (h5 : a5.IsWhole) (hc : cond0_0 i) (x0 : Vec F S2000x16 .f32) (x1 : Vec F S16x1024 .f32) (x2 : Vec F S2000x1 .f32) (q : Fin 1024) :
    out0_A_3 (F := F) c i a1 h1 a2 h2 a3 h3 a4 h4 a5 h5 hc x0 x1 x2 (ix2 0 q) = k0_pay5 x0 x1 x2 (oldRow (k0_pay1 (F := F))) (ix2 0 q) := by
  unfold out0_A_3
  rw [View.read_writes_eq_canon _ _ _ (cover0_A_3 c i a1 h1 a2 h2 a3 h3 a4 h4 a5 h5 hc x0 x1 x2)]
  unfold kernelRun0_A
  dsimp only
  sl_unfold_words
  refine (congrArg _ (row0_emb q).symm).trans ((View.canon_cons_emb _ _ _ _).trans ?_)
  simp only [View.readAt_eq_ld, h1.read_unread, h2.read_unread, h3.read_unread, View.ld_unit_zero (S := S2000x16) hz,
    View.ld_unit_zero (S := S16x1024) hz, View.ld_unit_zero (S := S2000x1) hz, View.readCov_eq_canon', View.canon_unit_zero (S := S8x1024) hz]
  rfl

/-- First point, sums: row 0 ends at the sum payload over the two reset rows. -/
theorem outA4_apply (c : Dev nD) (i : grid0.Coords) (a1 : Memref sig .tc .vmem S2000x16 .f32) (h1 : a1.IsWhole) (a2 : Memref sig .tc .vmem S16x1024 .f32) (h2 : a2.IsWhole) (a3 : Memref sig .tc .vmem S2000x1 .f32) (h3 : a3.IsWhole) (a4 : Memref sig .tc .vmem S8x1024 .f32) (h4 : a4.IsWhole) (a5 : Memref sig .tc .vmem S8x1024 .f32) (h5 : a5.IsWhole) (hc : cond0_0 i) (x0 : Vec F S2000x16 .f32) (x1 : Vec F S16x1024 .f32) (x2 : Vec F S2000x1 .f32) (q : Fin 1024) :
    out0_A_4 (F := F) c i a1 h1 a2 h2 a3 h3 a4 h4 a5 h5 hc x0 x1 x2 (ix2 0 q)
      = k0_pay6 x0 x1 x2 (oldRow (k0_pay1 (F := F))) (oldRow (k0_pay2 (F := F))) (ix2 0 q) := by
  unfold out0_A_4
  rw [View.read_writes_eq_canon _ _ _ (cover0_A_4 c i a1 h1 a2 h2 a3 h3 a4 h4 a5 h5 hc x0 x1 x2)]
  unfold kernelRun0_A
  dsimp only
  sl_unfold_words
  refine (congrArg _ (row0_emb q).symm).trans ((View.canon_cons_emb _ _ _ _).trans ?_)
  simp only [View.readAt_eq_ld, h1.read_unread, h2.read_unread, h3.read_unread, h4.read_unread, h5.read_unread, View.ld_unit_zero (S := S2000x16) hz,
    View.ld_unit_zero (S := S16x1024) hz, View.ld_unit_zero (S := S2000x1) hz, View.readCov_eq_canon', View.canon_unit_zero (S := S8x1024) hz]
  rfl

/-- A later point, maxima: row 0 ends at the maximum payload over the row the point before left. -/
theorem outB3_apply (c : Dev nD) (i : grid0.Coords) (a1 : Memref sig .tc .vmem S2000x16 .f32) (h1 : a1.IsWhole) (a2 : Memref sig .tc .vmem S16x1024 .f32) (h2 : a2.IsWhole) (a3 : Memref sig .tc .vmem S2000x1 .f32) (h3 : a3.IsWhole) (a4 : Memref sig .tc .vmem S8x1024 .f32) (h4 : a4.IsWhole) (a5 : Memref sig .tc .vmem S8x1024 .f32) (h5 : a5.IsWhole) (hc : ¬cond0_0 i) (x0 : Vec F S2000x16 .f32) (x1 : Vec F S16x1024 .f32) (x2 : Vec F S2000x1 .f32)
    (xo3 xo4 : Vec F S8x1024 .f32) (q : Fin 1024) :
    out0_B_3 (F := F) c i a1 h1 a2 h2 a3 h3 a4 h4 a5 h5 hc x0 x1 x2 xo3 xo4 (ix2 0 q) = k0_pay5 x0 x1 x2 (oldRow xo3) (ix2 0 q) := by
  unfold out0_B_3
  unfold kernelRun0_B
  dsimp only
  sl_unfold_words
  refine (congrArg _ (row0_emb q).symm).trans ((View.read_writes_cons_emb _ _ _ _ _ _).trans ?_)
  simp only [View.readAt_eq_ld, h1.read_unread, h2.read_unread, h3.read_unread, h4.read_unread, h5.read_unread, View.ld_unit_zero (S := S2000x16) hz,
    View.ld_unit_zero (S := S16x1024) hz, View.ld_unit_zero (S := S2000x1) hz, View.readCov_eq_canon', View.canon_unit_zero (S := S8x1024) hz]

/-- A later point, sums: row 0 ends at the sum payload over the two rows the point before left. -/
theorem outB4_apply (c : Dev nD) (i : grid0.Coords) (a1 : Memref sig .tc .vmem S2000x16 .f32) (h1 : a1.IsWhole) (a2 : Memref sig .tc .vmem S16x1024 .f32) (h2 : a2.IsWhole) (a3 : Memref sig .tc .vmem S2000x1 .f32) (h3 : a3.IsWhole) (a4 : Memref sig .tc .vmem S8x1024 .f32) (h4 : a4.IsWhole) (a5 : Memref sig .tc .vmem S8x1024 .f32) (h5 : a5.IsWhole) (hc : ¬cond0_0 i) (x0 : Vec F S2000x16 .f32) (x1 : Vec F S16x1024 .f32) (x2 : Vec F S2000x1 .f32)
    (xo3 xo4 : Vec F S8x1024 .f32) (q : Fin 1024) :
    out0_B_4 (F := F) c i a1 h1 a2 h2 a3 h3 a4 h4 a5 h5 hc x0 x1 x2 xo3 xo4 (ix2 0 q) = k0_pay6 x0 x1 x2 (oldRow xo3) (oldRow xo4) (ix2 0 q) := by
  unfold out0_B_4
  unfold kernelRun0_B
  dsimp only
  sl_unfold_words
  refine (congrArg _ (row0_emb q).symm).trans ((View.read_writes_cons_emb _ _ _ _ _ _).trans ?_)
  simp only [View.readAt_eq_ld, h1.read_unread, h2.read_unread, h3.read_unread, h4.read_unread, h5.read_unread, View.ld_unit_zero (S := S2000x16) hz,
    View.ld_unit_zero (S := S16x1024) hz, View.ld_unit_zero (S := S2000x1) hz, View.readCov_eq_canon', View.canon_unit_zero (S := S8x1024) hz]

end Cert.KernelIdeal.StatsPieces

end
-- ==== Proof.StatsPayload.lean ====
/-
  The first sweep's arithmetic read at an index, on the extended reals.
  For a tile of 2000 weight rows x0, the state block x1 and the tile's bias column x2:
    l(p, q) = Σ_k x0(p, k) · x1(k, q) + x2(p, 0)                                   (the tile's logits)
    new maximum at column q = max(old maximum, max_p l(p, q))                       (the fold of max from −∞ over the rows)
    new sum at column q     = old sum · e^{old max − new max} + Σ_p e^{l(p, q) − new max}.
-/
import proofs.«100738_g11304353923510_cont_sun_m_672_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.StatsPayload

open Idealize.ShloMosaic Idealize.ShloMosaic.ValueIdx
open Cert.KernelIdeal Cert.KernelIdeal.Gen

/-! ## Literals -/

theorem ofBits_neg_inf : Ideal.ofBits .f32 0xFF800000#32 = (⊥ : EReal) := by simp [Ideal.ofBits, Ideal.ieee]
theorem ofBits_zero : Ideal.ofBits .f32 0x00000000#32 = (0 : EReal) := Ideal.ofBits_zero_f32

/-! ## The contraction over the 16 state coordinates -/

theorem lhs_axis0 (i : S2000x1024.Idx) (q : dot_S2000x16_S16x1024_S2000x1024_1_0_0_1_n_n.contr.Idx) : (dot_S2000x16_S16x1024_S2000x1024_1_0_0_1_n_n.lhsIdx i q 0).val = (i 0).val := by
  unfold DotDims.lhsIdx
  rw [dif_neg (show ¬(0 : Fin S2000x16.rank) ∈ dot_S2000x16_S16x1024_S2000x1024_1_0_0_1_n_n.lhsBatch by decide), dif_pos (show (0 : Fin S2000x16.rank) ∈ dot_S2000x16_S16x1024_S2000x1024_1_0_0_1_n_n.lhsNonContracting by decide)]
  rfl
theorem lhs_axis1 (i : S2000x1024.Idx) (q : dot_S2000x16_S16x1024_S2000x1024_1_0_0_1_n_n.contr.Idx) : (dot_S2000x16_S16x1024_S2000x1024_1_0_0_1_n_n.lhsIdx i q 1).val = (q ⟨0, by decide⟩).val :=
  dot_S2000x16_S16x1024_S2000x1024_1_0_0_1_n_n.lhsIdx_val_of_single rfl i q
theorem rhs_axis0 (i : S2000x1024.Idx) (q : dot_S2000x16_S16x1024_S2000x1024_1_0_0_1_n_n.contr.Idx) : (dot_S2000x16_S16x1024_S2000x1024_1_0_0_1_n_n.rhsIdx i q 0).val = (q ⟨0, by decide⟩).val :=
  dot_S2000x16_S16x1024_S2000x1024_1_0_0_1_n_n.rhsIdx_val_of_single rfl i q
theorem rhs_axis1 (i : S2000x1024.Idx) (q : dot_S2000x16_S16x1024_S2000x1024_1_0_0_1_n_n.contr.Idx) : (dot_S2000x16_S16x1024_S2000x1024_1_0_0_1_n_n.rhsIdx i q 1).val = (i 1).val := by
  unfold DotDims.rhsIdx
  rw [dif_neg (show ¬(1 : Fin S16x1024.rank) ∈ dot_S2000x16_S16x1024_S2000x1024_1_0_0_1_n_n.rhsBatch by decide), dif_pos (show (1 : Fin S16x1024.rank) ∈ dot_S2000x16_S16x1024_S2000x1024_1_0_0_1_n_n.rhsNonContracting by decide)]
  rfl

/-- The product of a tile of weight rows with the state block, into a zero accumulator, at (p, q): the sum over the
    16 state coordinates. -/
theorem tile_matmul_apply (x0 : FVec Ideal S2000x16 .f32) (x1 : FVec Ideal S16x1024 .f32) (p : Fin 2000) (q : Fin 1024) :
    (matmul (F := Ideal) (φ₁ := .f32) (φ₂ := .f32) dot_S2000x16_S16x1024_S2000x1024_1_0_0_1_n_n none x0 x1 (constant S2000x1024 .f32 0x00000000#32) (ix2 p q) : EReal) = ∑ k : Fin 16, x0 (ix2 p k) * x1 (ix2 k q) := by
  simp only [matmul]
  rw [Ideal.matmul_constant_zero_apply, ← Equiv.sum_comp (ValueIdx.contrEquiv1 dot_S2000x16_S16x1024_S2000x1024_1_0_0_1_n_n 16 rfl rfl).symm]
  refine Finset.sum_congr rfl fun k _ => ?_
  have hk := ValueIdx.contrEquiv1_symm_val dot_S2000x16_S16x1024_S2000x1024_1_0_0_1_n_n 16 rfl rfl k
  have el : dot_S2000x16_S16x1024_S2000x1024_1_0_0_1_n_n.lhsIdx (ix2 p q) ((ValueIdx.contrEquiv1 dot_S2000x16_S16x1024_S2000x1024_1_0_0_1_n_n 16 rfl rfl).symm k) = ix2 p k := funext fun a => Fin.ext (by
    match a with
    | ⟨0, _⟩ => exact lhs_axis0 _ _
    | ⟨1, _⟩ => exact (lhs_axis1 _ _).trans hk)
  have er : dot_S2000x16_S16x1024_S2000x1024_1_0_0_1_n_n.rhsIdx (ix2 p q) ((ValueIdx.contrEquiv1 dot_S2000x16_S16x1024_S2000x1024_1_0_0_1_n_n 16 rfl rfl).symm k) = ix2 k q := funext fun a => Fin.ext (by
    match a with
    | ⟨0, _⟩ => exact (rhs_axis0 _ _).trans hk
    | ⟨1, _⟩ => exact rhs_axis1 _ _)
  rw [el, er]

/-- A column broadcast along the rows: entry (p, q) is the column's entry (p, 0). -/
theorem bcast_col_apply (v : (⟨2, ![2000, 1]⟩ : Shape).Idx → EReal) (h : (⟨2, ![2000, 1]⟩ : Shape).Broadcasts ⟨2, ![2000, 1024]⟩)
    (p : Fin 2000) (q : Fin 1024) : broadcastTo ⟨2, ![2000, 1024]⟩ v h (ix2 p q) = v (ix2 p (0 : Fin 1)) := by
  refine broadcastTo_apply v h (ix2 p q) (ix2 p (0 : Fin 1)) fun ax => ?_
  match ax with
  | ⟨0, _⟩ => show p.val = if (2000 : Nat) = 1 then 0 else p.val; rw [if_neg (by decide)]
  | ⟨1, _⟩ => show 0 = if (1 : Nat) = 1 then 0 else q.val; rw [if_pos rfl]

/-- The tile's logits. -/
theorem pay3_apply (x0 : Vec Ideal S2000x16 .f32) (x1 : Vec Ideal S16x1024 .f32) (x2 : Vec Ideal S2000x1 .f32) (p : Fin 2000) (q : Fin 1024) :
    k0_pay3 x0 x1 x2 (ix2 p q) = (∑ k : Fin 16, x0 (ix2 p k) * x1 (ix2 k q)) + x2 (ix2 p (0 : Fin 1)) := by
  unfold k0_pay3
  rw [shapeCast_self, shapeCast_self, shapeCast_self, addf_apply, tile_matmul_apply, bcast_col_apply]

/-! ## The two reductions over the tile's 2000 rows -/

/-- Reducing over the rows at column q runs over the entries (p, q). -/
theorem lift_row (h : S2000x1024.Reduces [0] S1024) (q : Fin 1024) (p : Fin 2000) :
    h.lift (ix1 q) p = (ix2 p q : S2000x1024.Idx) :=
  funext fun a => Fin.ext (by match a with | ⟨0, _⟩ => rfl | ⟨1, _⟩ => rfl)

/-- The maximum over the rows, from −∞, at column q. -/
theorem colmax_apply (src : FVec Ideal S2000x1024 .f32) (h : S2000x1024.Reduces [0] S1024) (hφ : FKind.Formats .f32)
    (hacc : (0xFF800000#32 : BitVec 32) = 0xFF800000#32) (q : Fin 1024) :
    (multiReduction .maximumf [0] S1024 src 0xFF800000#32 h hφ hacc (ix1 q) : EReal)
      = Finset.univ.fold max (⊥ : EReal) (fun p : Fin 2000 => (src (ix2 p q) : EReal)) := by
  refine (Ideal.multiReduction_maximumf_single src 0xFF800000#32 h hφ hacc (ix1 q)).trans ?_
  rw [Ideal.ofBits_def, ofBits_neg_inf]
  exact congrArg (fun f => Finset.fold max (⊥ : EReal) f Finset.univ) (funext fun p => congrArg src (lift_row h q p))

/-- The sum over the rows, from 0, at column q. -/
theorem colsum_apply (src : FVec Ideal S2000x1024 .f32) (h : S2000x1024.Reduces [0] S1024) (hφ : FKind.Formats .f32)
    (hacc : (0x00000000#32 : BitVec 32) = 0x00000000#32) (q : Fin 1024) :
    (multiReduction .add [0] S1024 src 0x00000000#32 h hφ hacc (ix1 q) : EReal) = ∑ p : Fin 2000, (src (ix2 p q) : EReal) := by
  refine (Ideal.multiReduction_add_single src 0x00000000#32 h hφ hacc (ix1 q)).trans ?_
  exact Finset.sum_congr rfl fun p _ => congrArg src (lift_row h q p)

/-- The new maximum at column q: the old one joined with the tile's column maximum. -/
theorem pay5_apply (x0 : Vec Ideal S2000x16 .f32) (x1 : Vec Ideal S16x1024 .f32) (x2 : Vec Ideal S2000x1 .f32) (v14 : Vec Ideal S1x1024 .f32) (q : Fin 1024) :
    (k0_pay5 x0 x1 x2 v14 (ix2 (0 : Fin 1) q) : EReal)
      = max (v14 (ix2 (0 : Fin 1) q)) (Finset.univ.fold max (⊥ : EReal) (fun p : Fin 2000 => (k0_pay3 x0 x1 x2 (ix2 p q) : EReal))) := by
  unfold k0_pay5 k0_pay4
  rw [maximumf_apply, shapeCast_self, shapeCast_a_1a_apply]
  exact congrArg (max _) (colmax_apply _ _ _ _ q)

/-- The new sum at column q: the old one rescaled to the new maximum, plus the tile's column sum of exponentials. -/
theorem pay6_apply (x0 : Vec Ideal S2000x16 .f32) (x1 : Vec Ideal S16x1024 .f32) (x2 : Vec Ideal S2000x1 .f32) (v14 v24 : Vec Ideal S1x1024 .f32) (q : Fin 1024) :
    (k0_pay6 x0 x1 x2 v14 v24 (ix2 (0 : Fin 1) q) : EReal)
      = v24 (ix2 (0 : Fin 1) q) * Ideal.exp (v14 (ix2 (0 : Fin 1) q) - k0_pay5 x0 x1 x2 v14 (ix2 (0 : Fin 1) q))
        + ∑ p : Fin 2000, Ideal.exp (k0_pay3 x0 x1 x2 (ix2 p q) - k0_pay5 x0 x1 x2 v14 (ix2 (0 : Fin 1) q)) := by
  unfold k0_pay6 k0_pay4
  rw [addf_apply, mulf_apply, shapeCast_self, shapeCast_self, shapeCast_a_1a_apply]
  refine congrArg (_ + ·) ((colsum_apply _ _ _ _ q).trans (Finset.sum_congr rfl fun p _ => ?_))
  show Ideal.exp (k0_pay3 x0 x1 x2 (ix2 p q) - broadcastTo S2000x1024 (k0_pay5 x0 x1 x2 v14) broadcasts_S1x1024_S2000x1024 (ix2 p q)) = _
  rw [broadcastTo_1b_ab_apply]

end Cert.KernelIdeal.StatsPayload

end
-- ==== Proof.Stats.lean ====
/-
  The first sweep's two statistics arrays, for any contents V the region is entered with whose logits are reals.
  Grid point t handles the 2000 actions 2000t … 2000t + 1999. Per batch column b, with f n the real logit of action n, the
  row-0 entries after point t are the running maximum m = max_{n < 2000(t+1)} f n and the running sum
  d = Σ_{n < 2000(t+1)} e^{f n − m}: true after the first point (which starts from −∞ and 0), and kept by every later point
  because max(m, tile max) is the maximum over the longer prefix and d · e^{m − m'} + Σ_tile e^{f − m'} is the sum over it.
  Both blocks are written back once, after the last point, and each block is its whole array; so the arrays end at the
  statistics of all 100000 actions.
-/
import proofs.«100738_g11304353923510_cont_sun_m_672_3_alg».proof.Proof.Gen.KernelIdeal.Frame
import proofs.«100738_g11304353923510_cont_sun_m_672_3_alg».proof.Proof.Operands
import proofs.«100738_g11304353923510_cont_sun_m_672_3_alg».proof.Proof.SoftmaxLaw
import proofs.«100738_g11304353923510_cont_sun_m_672_3_alg».proof.Proof.StatsPieces
import proofs.«100738_g11304353923510_cont_sun_m_672_3_alg».proof.Proof.StatsPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Stats

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Operands Cert.KernelIdeal.StatsPieces Cert.KernelIdeal.StatsPayload
open Cert.SoftmaxLaw

variable (V : (c : Dev nD) → (b : Ref sig .tc) → Buf (Elt Ideal) ((c : Thread nD τ).loc b))

/-! ## The three input blocks at a point -/

/-- The printed index maps over the grid: the weight rows and the bias column move with the point, the state block does not. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_50 (t : Fin cfg0.N) : t.val < 50 := lt_of_lt_of_eq t.isLt (show cfg0.N = 50 from N_0)

/-- Point t's block of weight rows, of the states, of the bias column. -/
abbrev wblk (c : Dev nD) (t : Fin cfg0.N) : Vec Ideal S2000x16 .f32 := iblk0 V c 0 t
abbrev sblk (c : Dev nD) (t : Fin cfg0.N) : Vec Ideal S16x1024 .f32 := iblk0 V c 1 t
abbrev bblk (c : Dev nD) (t : Fin cfg0.N) : Vec Ideal S2000x1 .f32 := iblk0 V c 2 t

/-- Row p of point t's weight block is row 2000t + p of the transposed weights. -/
theorem wblk_apply (c : Dev nD) (t : Fin cfg0.N) (p : Fin 2000) (k : Fin 16) (n : Fin 100000) (hn : n.val = 2000 * t.val + p.val) :
    wblk V c t (ix2 p k) = wt V c (ix2 n k) := by
  show V c main_call0_v1 (((cfg0.win 0).blk t).view.emb (ix2 p k)) = V c main_call0_v1 (ix2 n k)
  refine congrArg _ (funext fun a => Fin.ext ?_)
  obtain ⟨e0, e1, -⟩ := idx_facts t
  match a with
  | ⟨0, _⟩ => show win0_0.index t (0 : Fin 2) * 2000 + 1 * p.val = n.val; omega
  | ⟨1, _⟩ => show win0_0.index t (1 : Fin 2) * 16 + 1 * k.val = k.val; omega

/-- The state block is the whole transposed state array at every point. -/
theorem sblk_apply (c : Dev nD) (t : Fin cfg0.N) (k : Fin 16) (q : Fin 1024) : sblk V c t (ix2 k q) = st V c (ix2 k q) := by
  show V c main_call0_v0 (((cfg0.win 1).blk t).view.emb (ix2 k q)) = V c main_call0_v0 (ix2 k q)
  refine congrArg _ (funext fun a => Fin.ext ?_)
  obtain ⟨-, -, e2, e3, -⟩ := idx_facts t
  match a with
  | ⟨0, _⟩ => show win0_1.index t (0 : Fin 2) * 16 + 1 * k.val = k.val; omega
  | ⟨1, _⟩ => show win0_1.index t (1 : Fin 2) * 1024 + 1 * q.val = q.val; omega

/-- Row p of point t's bias block is row 2000t + p of the bias column. -/
theorem bblk_apply (c : Dev nD) (t : Fin cfg0.N) (p : Fin 2000) (n : Fin 100000) (hn : n.val = 2000 * t.val + p.val) :
    bblk V c t (ix2 p (0 : Fin 1)) = bt V c (ix2 n (0 : Fin 1)) := by
  show V c main_call0_v2 (((cfg0.win 2).blk t).view.emb (ix2 p (0 : Fin 1))) = V c main_call0_v2 (ix2 n (0 : Fin 1))
  refine congrArg _ (funext fun a => Fin.ext ?_)
  obtain ⟨-, -, -, -, e4, e5⟩ := idx_facts t
  match a with
  | ⟨0, _⟩ => show win0_2.index t (0 : Fin 2) * 2000 + 1 * p.val = n.val; omega
  | ⟨1, _⟩ => show win0_2.index t (1 : Fin 2) * 1 + 1 * 0 = 0; omega

/-- The tile's logit at (p, q) is the kernel's logit of action 2000t + p for column q. -/
theorem tile_logit (c : Dev nD) (t : Fin cfg0.N) (p : Fin 2000) (q : Fin 1024) (n : Fin 100000) (hn : n.val = 2000 * t.val + p.val) :
    (k0_pay3 (wblk V c t) (sblk V c t) (bblk V c t) (ix2 p q) : EReal) = klogit V c n q := by
  rw [pay3_apply, bblk_apply V c t p n hn]
  unfold klogit
  refine congrArg (· + _) (Finset.sum_congr rfl fun k _ => ?_)
  rw [wblk_apply V c t p k n hn, sblk_apply]

/-! ## The running statistics -/

/-- Column b's real logits as a sequence (0 beyond the 100000 actions). -/
def fcol (lr : Fin 100000 → Fin 1024 → ℝ) (b : Fin 1024) : ℕ → ℝ := fun n => if h : n < 100000 then lr ⟨n, h⟩ b else 0

theorem tile_logit_real (c : Dev nD) (lr : Fin 100000 → Fin 1024 → ℝ) (hl : ∀ n b, klogit V c n b = (lr n b : EReal))
    (t : Fin cfg0.N) (p : Fin 2000) (q : Fin 1024) :
    (k0_pay3 (wblk V c t) (sblk V c t) (bblk V c t) (ix2 p q) : EReal) = (fcol lr q (2000 * t.val + p.val) : EReal) := by
  have ht := lt_50 t
  have hp := p.isLt
  have hlt : 2000 * t.val + p.val < 100000 := by omega
  rw [tile_logit V c t p q ⟨2000 * t.val + p.val, hlt⟩ rfl, hl]
  unfold fcol
  rw [dif_pos hlt]

/-- After point n, row 0 holds the running maximum and the running sum of exponentials over the first 2000(n+1) actions. -/
theorem running (c : Dev nD) (lr : Fin 100000 → Fin 1024 → ℝ) (hl : ∀ n b, klogit V c n b = (lr n b : EReal)) (b : Fin 1024) :
    ∀ (n : ℕ) (h : n < cfg0.N),
      ((outsAt0 V c n h).1 (ix2 (0 : Fin 8) b) : EReal) = (pmax (fcol lr b) (2000 * (n + 1)) : EReal)
      ∧ ((outsAt0 V c n h).2 (ix2 (0 : Fin 8) b) : EReal) = (psum (fcol lr b) (2000 * (n + 1)) : EReal)
  | 0, h => by
    have hm : (k0_pay5 (wblk V c ⟨0, h⟩) (sblk V c ⟨0, h⟩) (bblk V c ⟨0, h⟩) (oldRow (k0_pay1 (F := Ideal))) (ix2 (0 : Fin 1) b) : EReal)
        = (pmax (fcol lr b) 2000 : EReal) := by
      rw [pay5_apply, oldRow_apply]
      have e : (fun p : Fin 2000 => (k0_pay3 (wblk V c ⟨0, h⟩) (sblk V c ⟨0, h⟩) (bblk V c ⟨0, h⟩) (ix2 p b) : EReal))
          = fun p : Fin 2000 => (fcol lr b p.val : EReal) := funext fun p => by
        rw [tile_logit_real V c lr hl ⟨0, h⟩ p b]; simp
      rw [e]
      show max (Ideal.ofBits .f32 0xFF800000#32) _ = _
      rw [ofBits_neg_inf]
      exact online_first_max (fcol lr b) 2000
    rw [outsAt0_A V c ⟨0, h⟩ rfl]
    dsimp only
    refine ⟨?_, ?_⟩
    · refine (outA3_apply (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (wblk V c ⟨0, h⟩) (sblk V c ⟨0, h⟩) (bblk V c ⟨0, h⟩) b).trans ?_
      exact hm
    · refine (outA4_apply (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (wblk V c ⟨0, h⟩) (sblk V c ⟨0, h⟩) (bblk V c ⟨0, h⟩) b).trans ?_
      rw [pay6_apply, hm, oldRow_apply]
      show Ideal.ofBits .f32 0x00000000#32 * _ + _ = _
      rw [ofBits_zero, zero_mul, zero_add]
      have e : (fun p : Fin 2000 => Ideal.exp ((k0_pay3 (wblk V c ⟨0, h⟩) (sblk V c ⟨0, h⟩) (bblk V c ⟨0, h⟩) (ix2 p b) : EReal) - (pmax (fcol lr b) 2000 : EReal)))
          = fun p : Fin 2000 => Ideal.exp ((fcol lr b p.val : EReal) - (pmax (fcol lr b) 2000 : EReal)) := funext fun p => by
        rw [tile_logit_real V c lr hl ⟨0, h⟩ p b]; simp
      rw [e]
      exact online_first_sum (fcol lr b) 2000
  | n + 1, h => by
    have hN : cfg0.N = 50 := N_0
    have hB : ¬(⟨n + 1, h⟩ : Fin cfg0.N).val % 50 = 0 := by dsimp only; omega
    obtain ⟨ihm, ihd⟩ := running c lr hl b n (Nat.lt_of_succ_lt h)
    have hK : 0 < 2000 * (n + 1) := by omega
    have hKT : 2000 * (n + 1 + 1) = 2000 * (n + 1) + 2000 := by ring
    have hm : (k0_pay5 (wblk V c ⟨n + 1, h⟩) (sblk V c ⟨n + 1, h⟩) (bblk V c ⟨n + 1, h⟩) (oldRow (outsAt0 V c n (Nat.lt_of_succ_lt h)).1) (ix2 (0 : Fin 1) b) : EReal)
        = (pmax (fcol lr b) (2000 * (n + 1) + 2000) : EReal) := by
      rw [pay5_apply, oldRow_apply, ihm]
      have e : (fun p : Fin 2000 => (k0_pay3 (wblk V c ⟨n + 1, h⟩) (sblk V c ⟨n + 1, h⟩) (bblk V c ⟨n + 1, h⟩) (ix2 p b) : EReal))
          = fun p : Fin 2000 => (fcol lr b (2000 * (n + 1) + p.val) : EReal) := funext fun p => by
        rw [tile_logit_real V c lr hl ⟨n + 1, h⟩ p b]
      rw [e]
      exact online_step_max (fcol lr b) (2000 * (n + 1)) 2000 hK
    rw [outsAt0_B V c ⟨n + 1, h⟩ hB, hKT]
    dsimp only
    refine ⟨?_, ?_⟩
    · refine (outB3_apply (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hc => hB ((hcond0_0 ⟨n + 1, h⟩).mp hc)) (wblk V c ⟨n + 1, h⟩) (sblk V c ⟨n + 1, h⟩) (bblk V c ⟨n + 1, h⟩)
        (outsAt0 V c n (Nat.lt_of_succ_lt h)).1 (outsAt0 V c n (Nat.lt_of_succ_lt h)).2 b).trans ?_
      exact hm
    · refine (outB4_apply (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hc => hB ((hcond0_0 ⟨n + 1, h⟩).mp hc)) (wblk V c ⟨n + 1, h⟩) (sblk V c ⟨n + 1, h⟩) (bblk V c ⟨n + 1, h⟩)
        (outsAt0 V c n (Nat.lt_of_succ_lt h)).1 (outsAt0 V c n (Nat.lt_of_succ_lt h)).2 b).trans ?_
      rw [pay6_apply, hm, oldRow_apply, oldRow_apply, ihm, ihd]
      have e : (fun p : Fin 2000 => Ideal.exp ((k0_pay3 (wblk V c ⟨n + 1, h⟩) (sblk V c ⟨n + 1, h⟩) (bblk V c ⟨n + 1, h⟩) (ix2 p b) : EReal) - (pmax (fcol lr b) (2000 * (n + 1) + 2000) : EReal)))
          = fun p : Fin 2000 => Ideal.exp ((fcol lr b (2000 * (n + 1) + p.val) : EReal) - (pmax (fcol lr b) (2000 * (n + 1) + 2000) : EReal)) := funext fun p => by
        rw [tile_logit_real V c lr hl ⟨n + 1, h⟩ p b]
      rw [e]
      exact online_step_sum (fcol lr b) (2000 * (n + 1)) 2000 hK

/-! ## The arrays after the sweep -/

theorem lt_last : (49 : ℕ) < cfg0.N := by rw [show cfg0.N = 50 from N_0]; decide
/-- The last grid point. -/
abbrev tLast : Fin cfg0.N := ⟨49, lt_last⟩

/-- What the last point leaves in the two blocks, as contents of the two statistics arrays (each block IS its array). -/
abbrev mres (c : Dev nD) : Buf (Elt Ideal) ((c : Thread nD τ).loc main_call0_v3_0) := (outsAt0 V c 49 lt_last).1
abbrev dres (c : Dev nD) : Buf (Elt Ideal) ((c : Thread nD τ).loc main_call0_v3_1) := (outsAt0 V c 49 lt_last).2

/-- The one write-back of the maxima block, after the last point, writes that. -/
theorem flushed3_eq (c : Dev nD) (t : Fin cfg0.N) (hf : (cfg0.win 3).flush t = true) :
    (dat0 V c).flushed 3 t = ((cfg0.win 3).blk t).view.read (Elt Ideal) (mres V c) := by
  have hN : cfg0.N = 50 := N_0
  have h49 : t.val = 49 := by have := (flush0_3 t).mp hf; have := t.isLt; omega
  obtain rfl : t = tLast := Fin.ext h49
  show (cfg0.win 3).cut (grid0.coords tLast) ((dat0 V c).after 3 tLast) = _
  rw [after0_3]
  have hz' : (fun a => win0_3.index tLast a * main_call0_v3_0.ty.shape.size a) = fun _ => 0 := funext fun a => by fin_cases a <;> decide
  exact (Memref.read_access_unit_zero (Elt Ideal) main_call0_v3_0 hz' (fun a => by rw [congrFun hz' a]; simp) (mres V c)).symm

theorem flushed4_eq (c : Dev nD) (t : Fin cfg0.N) (hf : (cfg0.win 4).flush t = true) :
    (dat0 V c).flushed 4 t = ((cfg0.win 4).blk t).view.read (Elt Ideal) (dres V c) := by
  have hN : cfg0.N = 50 := N_0
  have h49 : t.val = 49 := by have := (flush0_4 t).mp hf; have := t.isLt; omega
  obtain rfl : t = tLast := Fin.ext h49
  show (cfg0.win 4).cut (grid0.coords tLast) ((dat0 V c).after 4 tLast) = _
  rw [after0_4]
  have hz' : (fun a => win0_4.index tLast a * main_call0_v3_1.ty.shape.size a) = fun _ => 0 := funext fun a => by fin_cases a <;> decide
  exact (Memref.read_access_unit_zero (Elt Ideal) main_call0_v3_1 hz' (fun a => by rw [congrFun hz' a]; simp) (dres V c)).symm

/-- The last point's block covers the whole 8 × 1024 array. -/
theorem final3 (c : Dev nD) : (dat0 V c).arrAt 3 cfg0.N = mres V c :=
  (dat0 V c).arrAt_eq_of_cover 3 (mres V c) (flushed3_eq V c) fun i =>
    ⟨tLast, (flush0_3 tLast).mpr rfl, by
      show i ∈ ((View.whole main_call0_v3_0).slice (win0_3.rect tLast)).set
      rw [View.set_slice_whole, Rect.mem_set_unit]
      intro a
      have h0 : (i 0 : Nat) < 8 := (i 0).isLt
      have h1 : (i 1 : Nat) < 1024 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 8 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1024 from by decide +kernel]; omega⟩

theorem final4 (c : Dev nD) : (dat0 V c).arrAt 4 cfg0.N = dres V c :=
  (dat0 V c).arrAt_eq_of_cover 4 (dres V c) (flushed4_eq V c) fun i =>
    ⟨tLast, (flush0_4 tLast).mpr rfl, by
      show i ∈ ((View.whole main_call0_v3_1).slice (win0_4.rect tLast)).set
      rw [View.set_slice_whole, Rect.mem_set_unit]
      intro a
      have h0 : (i 0 : Nat) < 8 := (i 0).isLt
      have h1 : (i 1 : Nat) < 1024 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 8 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1024 from by decide +kernel]; omega⟩

/-- After the first sweep row 0 of the two statistics arrays holds, per batch column b, the maximum of the column's logits and
    the sum of their exponentials taken from that maximum. -/
theorem final (c : Dev nD) (lr : Fin 100000 → Fin 1024 → ℝ)
    (hl : ∀ n b, klogit V c n b = (lr n b : EReal)) (b : Fin 1024) :
    ((dat0 (F := Ideal) V c).arrAt 3 cfg0.N : (⟨S8x1024, .f32⟩ : BufTy).Contents (Elt Ideal)) (ix2 0 b) = (Cert.SoftmaxLaw.rmax (fun n => lr n b) : EReal)
    ∧ ((dat0 (F := Ideal) V c).arrAt 4 cfg0.N : (⟨S8x1024, .f32⟩ : BufTy).Contents (Elt Ideal)) (ix2 0 b) = (Cert.SoftmaxLaw.rsum (fun n => lr n b) : EReal) := by
  obtain ⟨hm, hd⟩ := running V c lr hl b 49 lt_last
  rw [final3, final4]
  have e : (2000 * (49 + 1) : ℕ) = 100000 := by norm_num
  rw [e] at hm hd
  refine ⟨hm.trans ?_, hd.trans ?_⟩
  · exact congrArg _ (pmax_eq_rmax (N := 100000) (fun n => lr n b))
  · exact congrArg _ (psum_eq_rsum (N := 100000) (fun n => lr n b))

end Cert.KernelIdeal.Stats

end
-- ==== Proof.Emit.lean ====
/-
  The second sweep's result array, for any contents V the region is entered with.
  At grid point t the body takes rows 2000t … 2000t+1999 of the transposed weights and of the bias column, the whole transposed
  state block, and row 0 of the two statistics blocks, and stores e^{l − m} · (1 / d) into rows 2000t … 2000t+1999 of the
  output, where l(n, b) = Σ_k wt(n, k) · st(k, b) + bt(n, 0). The fifty blocks tile the 100000 rows, so the array ends as that
  function of (n, b).
-/
import proofs.«100738_g11304353923510_cont_sun_m_672_3_alg».proof.Proof.Gen.KernelIdeal.Frame
import proofs.«100738_g11304353923510_cont_sun_m_672_3_alg».proof.Proof.Operands
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Emit

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Operands

/-! ## The body's arithmetic at an index -/

/-- The word 0x3F800000 denotes the number one. -/
theorem one_word : (Scalar.ofBits .f32 0x3F800000#32 : Ideal .f32) = 1 := by
  show Ideal.ofBits .f32 0x3F800000#32 = 1
  simp [Ideal.ofBits, Ideal.ieee, -EReal.coe_mul]; norm_num

/-- A column [2000, 1] broadcast over 1024 columns reads, at (p, q), the column at p. -/
theorem bcast_col (v : S2000x1.Idx → EReal) (p : Fin 2000) (q : Fin 1024) :
    broadcastTo S2000x1024 v broadcasts_S2000x1_S2000x1024 (ix2 p q) = v (ix2 p (0 : Fin 1)) := by
  refine broadcastTo_apply v broadcasts_S2000x1_S2000x1024 (ix2 p q) (ix2 p (0 : Fin 1)) fun ax => ?_
  match ax with
  | ⟨0, _⟩ =>
    show p.val = if (2000 : ℕ) = 1 then 0 else p.val
    rw [if_neg (by decide)]
  | ⟨1, _⟩ =>
    show (0 : ℕ) = if (1 : ℕ) = 1 then 0 else q.val
    rw [if_pos rfl]

/-- A row [1, 1024] broadcast over 2000 rows reads, at (p, q), the row at q. -/
theorem bcast_row (v : S1x1024.Idx → EReal) (p : Fin 2000) (q : Fin 1024) :
    broadcastTo S2000x1024 v broadcasts_S1x1024_S2000x1024 (ix2 p q) = v (ix2 (0 : Fin 1) q) :=
  broadcastTo_1b_ab_apply v broadcasts_S1x1024_S2000x1024 p q

/-! ### The matrix product: the dot record's operand indices, axis by axis -/

theorem lhs_axis0 (i : S2000x1024.Idx) (q : dot_S2000x16_S16x1024_S2000x1024_1_0_0_1_n_n.contr.Idx) :
    (dot_S2000x16_S16x1024_S2000x1024_1_0_0_1_n_n.lhsIdx i q 0).val = (i 0).val := by
  unfold DotDims.lhsIdx
  rw [dif_neg (show ¬(0 : Fin S2000x16.rank) ∈ dot_S2000x16_S16x1024_S2000x1024_1_0_0_1_n_n.lhsBatch by decide), dif_pos (show (0 : Fin S2000x16.rank) ∈ dot_S2000x16_S16x1024_S2000x1024_1_0_0_1_n_n.lhsNonContracting by decide)]
  rfl
theorem lhs_axis1 (i : S2000x1024.Idx) (q : dot_S2000x16_S16x1024_S2000x1024_1_0_0_1_n_n.contr.Idx) :
    (dot_S2000x16_S16x1024_S2000x1024_1_0_0_1_n_n.lhsIdx i q 1).val = (q ⟨0, by decide⟩).val :=
  dot_S2000x16_S16x1024_S2000x1024_1_0_0_1_n_n.lhsIdx_val_of_single rfl i q
theorem rhs_axis0 (i : S2000x1024.Idx) (q : dot_S2000x16_S16x1024_S2000x1024_1_0_0_1_n_n.contr.Idx) :
    (dot_S2000x16_S16x1024_S2000x1024_1_0_0_1_n_n.rhsIdx i q 0).val = (q ⟨0, by decide⟩).val :=
  dot_S2000x16_S16x1024_S2000x1024_1_0_0_1_n_n.rhsIdx_val_of_single rfl i q
theorem rhs_axis1 (i : S2000x1024.Idx) (q : dot_S2000x16_S16x1024_S2000x1024_1_0_0_1_n_n.contr.Idx) :
    (dot_S2000x16_S16x1024_S2000x1024_1_0_0_1_n_n.rhsIdx i q 1).val = (i 1).val := by
  unfold DotDims.rhsIdx
  rw [dif_neg (show ¬(1 : Fin S16x1024.rank) ∈ dot_S2000x16_S16x1024_S2000x1024_1_0_0_1_n_n.rhsBatch by decide), dif_pos (show (1 : Fin S16x1024.rank) ∈ dot_S2000x16_S16x1024_S2000x1024_1_0_0_1_n_n.rhsNonContracting by decide)]
  rfl

/-- The product of a [2000, 16] block and a [16, 1024] block into the zero accumulator, at (p, q): Σ_k a(p, k) · b(k, q). -/
theorem matmul_at (a : FVec Ideal S2000x16 .f32) (b : FVec Ideal S16x1024 .f32) (p : Fin 2000) (q : Fin 1024) :
    matmul dot_S2000x16_S16x1024_S2000x1024_1_0_0_1_n_n none a b (constant (F := Ideal) S2000x1024 .f32 0x00000000#32) (ix2 p q)
      = ∑ k : Fin 16, a (ix2 p k) * b (ix2 k q) := by
  simp only [matmul]
  rw [Ideal.matmul_constant_zero_apply, ← Equiv.sum_comp (contrEquiv1 dot_S2000x16_S16x1024_S2000x1024_1_0_0_1_n_n 16 rfl rfl).symm]
  refine Finset.sum_congr rfl fun k _ => ?_
  have hk := contrEquiv1_symm_val dot_S2000x16_S16x1024_S2000x1024_1_0_0_1_n_n 16 rfl rfl k
  have el : dot_S2000x16_S16x1024_S2000x1024_1_0_0_1_n_n.lhsIdx (ix2 p q) ((contrEquiv1 dot_S2000x16_S16x1024_S2000x1024_1_0_0_1_n_n 16 rfl rfl).symm k) = ix2 p k := funext fun ax => Fin.ext (by
    match ax with
    | ⟨0, _⟩ => exact lhs_axis0 _ _
    | ⟨1, _⟩ => exact (lhs_axis1 _ _).trans hk)
  have er : dot_S2000x16_S16x1024_S2000x1024_1_0_0_1_n_n.rhsIdx (ix2 p q) ((contrEquiv1 dot_S2000x16_S16x1024_S2000x1024_1_0_0_1_n_n 16 rfl rfl).symm k) = ix2 k q := funext fun ax => Fin.ext (by
    match ax with
    | ⟨0, _⟩ => exact (rhs_axis0 _ _).trans hk
    | ⟨1, _⟩ => exact rhs_axis1 _ _)
  rw [el, er]

/-- The exponential of a block, at an index. -/
theorem vexp_at {s : Shape} {φ : FTy} (a : FVec Ideal s φ) (i : s.Idx) : Idealize.ShloMosaic.exp a i = Ideal.exp (a i) := rfl

/-- The body's stored value at (p, q) of its block, from the loaded blocks: e^{(Σ_k x0(p,k)·x1(k,q) + x2(p,0)) − x3(0,q)} · (1 / x4(0,q)). -/
theorem pay_at (x0 : Vec Ideal S2000x16 .f32) (x1 : Vec Ideal S16x1024 .f32) (x2 : Vec Ideal S2000x1 .f32)
    (x3 x4 : Vec Ideal S1x1024 .f32) (p : Fin 2000) (q : Fin 1024) :
    k1_pay1 x0 x1 x2 x3 x4 (ix2 p q)
      = Ideal.exp (((∑ k : Fin 16, x0 (ix2 p k) * x1 (ix2 k q)) + x2 (ix2 p (0 : Fin 1))) - x3 (ix2 (0 : Fin 1) q))
          * Ideal.div 1 (x4 (ix2 (0 : Fin 1) q)) := by
  unfold k1_pay1
  simp only [shapeCast_self, mulf_apply, vexp_at, subf_apply, addf_apply, matmul_at, bcast_col, bcast_row, divf_apply,
    broadcast_apply, one_word]

variable (V : (c : Dev nD) → (b : Ref sig .tc) → Buf (Elt Ideal) ((c : Thread nD τ).loc b))

/-! ## From the blocks to the array -/

/-- What the second sweep leaves in the output array, as one function of the five arrays it reads. -/
def emitted (c : Dev nD) : (⟨S100000x1024, .f32⟩ : BufTy).Contents (Elt Ideal) := fun i =>
  Ideal.exp (klogit V c ⟨(i 0).val, idx2_lt0 i⟩ ⟨(i 1).val, idx2_lt1 i⟩ - mstat V c (ix2 (0 : Fin 8) ⟨(i 1).val, idx2_lt1 i⟩))
    * Ideal.div 1 (dstat V c (ix2 (0 : Fin 8) ⟨(i 1).val, idx2_lt1 i⟩))

theorem emitted_at (c : Dev nD) (n : Fin 100000) (b : Fin 1024) :
    emitted V c (ix2 n b)
      = Ideal.exp (klogit V c n b - mstat V c (ix2 0 b)) * Ideal.div 1 (dstat V c (ix2 0 b)) := rfl

theorem zero_offsets : (![0, 0] : Fin 2 → Nat) = fun _ => 0 := funext fun a => by fin_cases a <;> rfl

/-- The block index of each window at each grid point: windows 0, 2 and 5 move down the rows with the point, the others stay. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 50 := Nat.lt_of_lt_of_eq t.isLt (N_1 : cfg1.N = 50)

/-- The blocks of the five input windows at a grid point, at their literal shapes. -/
abbrev blkW (c : Dev nD) (t : Fin cfg1.N) : Vec Ideal S2000x16 .f32 := iblk1 V c 0 t
abbrev blkS (c : Dev nD) (t : Fin cfg1.N) : Vec Ideal S16x1024 .f32 := iblk1 V c 1 t
abbrev blkB (c : Dev nD) (t : Fin cfg1.N) : Vec Ideal S2000x1 .f32 := iblk1 V c 2 t
abbrev blkM (c : Dev nD) (t : Fin cfg1.N) : Vec Ideal S8x1024 .f32 := iblk1 V c 3 t
abbrev blkD (c : Dev nD) (t : Fin cfg1.N) : Vec Ideal S8x1024 .f32 := iblk1 V c 4 t

/-- Row p of the weights' block at point t is row 2000·t + p of the array. -/
theorem blkW_at (c : Dev nD) (t : Fin cfg1.N) (p : Fin 2000) (k : Fin 16) (h : 2000 * t.val + p.val < 100000) :
    blkW V c t (ix2 p k) = wt V c (ix2 ⟨2000 * t.val + p.val, h⟩ k) := by
  obtain ⟨e0, e1, -⟩ := block_index t
  show V c main_call0_v1 (((cfg1.win 0).blk t).view.emb (ix2 p k)) = V c main_call0_v1 _
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 16 + 1 * k.val = k.val; omega

/-- The states' block is the whole array at every point. -/
theorem blkS_at (c : Dev nD) (t : Fin cfg1.N) (k : Fin 16) (q : Fin 1024) :
    blkS V c t (ix2 k q) = st V c (ix2 k q) := by
  obtain ⟨-, -, e0, e1, -⟩ := block_index t
  show V c main_call0_v0 (((cfg1.win 1).blk t).view.emb (ix2 k q)) = V c main_call0_v0 _
  refine congrArg _ (funext fun a => Fin.ext ?_)
  match a with
  | ⟨0, _⟩ => show win1_1.index t (0 : Fin 2) * 16 + 1 * k.val = k.val; omega
  | ⟨1, _⟩ => show win1_1.index t (1 : Fin 2) * 1024 + 1 * q.val = q.val; omega

/-- Row p of the bias block at point t is row 2000·t + p of the column. -/
theorem blkB_at (c : Dev nD) (t : Fin cfg1.N) (p : Fin 2000) (h : 2000 * t.val + p.val < 100000) :
    blkB V c t (ix2 p (0 : Fin 1)) = bt V c (ix2 ⟨2000 * t.val + p.val, h⟩ (0 : Fin 1)) := by
  obtain ⟨-, -, -, -, e0, e1, -⟩ := block_index t
  show V c main_call0_v2 (((cfg1.win 2).blk t).view.emb (ix2 p (0 : Fin 1))) = V c main_call0_v2 _
  refine congrArg _ (funext fun a => Fin.ext ?_)
  match a with
  | ⟨0, _⟩ => show win1_2.index t (0 : Fin 2) * 2000 + 1 * p.val = 2000 * t.val + p.val; omega
  | ⟨1, _⟩ => show win1_2.index t (1 : Fin 2) * 1 + 1 * 0 = 0; omega

/-- The load of row 0 of the maxima's block reads row 0 of the array. -/
theorem blkM_at (c : Dev nD) (t : Fin cfg1.N) (q : Fin 1024) :
    View.ld (blkM V c t) r1_3 (ix2 (0 : Fin 1) q) = mstat V c (ix2 (0 : Fin 8) q) := by
  obtain ⟨-, -, -, -, -, -, e0, e1, -⟩ := block_index t
  show V c main_call0_v3_0 (((cfg1.win 3).blk t).view.emb (r1_3.emb (ix2 (0 : Fin 1) q))) = V c main_call0_v3_0 _
  refine congrArg _ (funext fun a => Fin.ext ?_)
  match a with
  | ⟨0, _⟩ => show win1_3.index t (0 : Fin 2) * 8 + 1 * (0 + 1 * 0) = 0; omega
  | ⟨1, _⟩ => show win1_3.index t (1 : Fin 2) * 1024 + 1 * (0 + 1 * q.val) = q.val; omega

/-- The load of row 0 of the sums' block reads row 0 of the array. -/
theorem blkD_at (c : Dev nD) (t : Fin cfg1.N) (q : Fin 1024) :
    View.ld (blkD V c t) r1_3 (ix2 (0 : Fin 1) q) = dstat V c (ix2 (0 : Fin 8) q) := by
  obtain ⟨-, -, -, -, -, -, -, -, e0, e1, -⟩ := block_index t
  show V c main_call0_v3_1 (((cfg1.win 4).blk t).view.emb (r1_3.emb (ix2 (0 : Fin 1) q))) = V c main_call0_v3_1 _
  refine congrArg _ (funext fun a => Fin.ext ?_)
  match a with
  | ⟨0, _⟩ => show win1_4.index t (0 : Fin 2) * 8 + 1 * (0 + 1 * 0) = 0; omega
  | ⟨1, _⟩ => show win1_4.index t (1 : Fin 2) * 1024 + 1 * (0 + 1 * q.val) = q.val; omega

/-- What point t writes back is block t of the result function. -/
theorem flushed_eq (c : Dev nD) (t : Fin cfg1.N) :
    (dat1 (F := Ideal) V c).flushed 5 t = ((cfg1.win 5).blk t).view.read (Elt Ideal) (emitted V c) := by
  show (cfg1.win 5).cut (grid1.coords t) ((dat1 (F := Ideal) V c).after 5 t) = _
  rw [after1_5]
  unfold out1_5
  rw [View.canon_unit_zero zero_offsets]
  simp only [View.ld_unit_zero (S := S2000x16) zero_offsets, View.ld_unit_zero (S := S16x1024) zero_offsets,
    View.ld_unit_zero (S := S2000x1) zero_offsets]
  funext j
  -- the block index j as a pair (p, q) with p < 2000, q < 1024
  obtain ⟨p, hp⟩ : ∃ p : Fin 2000, p.val = (j 0).val := ⟨⟨_, (j 0).isLt⟩, rfl⟩
  obtain ⟨q, hq⟩ : ∃ q : Fin 1024, q.val = (j 1).val := ⟨⟨_, (j 1).isLt⟩, rfl⟩
  have ht := point_lt t
  have hrow : 2000 * t.val + p.val < 100000 := by have := p.isLt; omega
  obtain ⟨-, -, -, -, -, -, -, -, -, -, e0, e1⟩ := block_index t
  have hx : (win1 5).xinj (grid1.coords t) j = ix2 p q := by
    funext a; apply Fin.ext
    match a with
    | ⟨0, _⟩ => exact hp.symm
    | ⟨1, _⟩ => exact hq.symm
  -- in the array it is (2000·t + p, q)
  have hy : ((cfg1.win 5).blk t).view.emb j = ix2 (⟨2000 * t.val + p.val, hrow⟩ : Fin 100000) q := by
    funext a; apply Fin.ext
    match a with
    | ⟨0, _⟩ => show win1_5.index t (0 : Fin 2) * 2000 + 1 * (j 0).val = 2000 * t.val + p.val; omega
    | ⟨1, _⟩ => show win1_5.index t (1 : Fin 2) * 1024 + 1 * (j 1).val = q.val; omega
  show k1_pay1 (blkW V c t) (blkS V c t) (blkB V c t) (View.ld (blkM V c t) r1_3) (View.ld (blkD V c t) r1_3)
      ((win1 5).xinj (grid1.coords t) j) = emitted V c (((cfg1.win 5).blk t).view.emb j)
  rw [hx, hy, pay_at, emitted_at]
  unfold klogit
  rw [blkB_at V c t p hrow, blkM_at, blkD_at]
  simp only [blkW_at V c t p _ hrow, blkS_at]

/-- Row n lies in the block of point n / 2000. -/
theorem covered (i : S100000x1024.Idx) :
    ∃ t : Fin cfg1.N, (cfg1.win 5).flush t = true ∧ i ∈ ((cfg1.win 5).blk t).view.set := by
  have hi0 : (i 0).val < 100000 := idx2_lt0 i
  have hi1 : (i 1).val < 1024 := idx2_lt1 i
  have hlt : (i 0).val / 2000 < cfg1.N := by rw [show cfg1.N = 50 from N_1]; omega
  refine ⟨⟨(i 0).val / 2000, hlt⟩, flush1_5 _, ?_⟩
  obtain ⟨-, -, -, -, -, -, -, -, -, -, e0, e1⟩ := block_index ⟨(i 0).val / 2000, hlt⟩
  show i ∈ ((View.whole main_call0_v4).slice (win1_5.rect ⟨(i 0).val / 2000, hlt⟩)).set
  rw [View.set_slice_whole, Rect.mem_set_unit]
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, hlt⟩ (1 : Fin 2) * 1024 ≤ (i 1).val
      ∧ (i 1).val < win1_5.index ⟨(i 0).val / 2000, hlt⟩ (1 : Fin 2) * 1024 + 1024
    rw [e1]; omega

/-- The output array after the second sweep is the result function. -/
theorem final_eq (c : Dev nD) : (dat1 (F := Ideal) V c).arrAt 5 cfg1.N = emitted V c :=
  (dat1 (F := Ideal) V c).arrAt_eq_of_cover 5 (emitted V c) (fun t _ => flushed_eq V c t) (covered)

/-- The output array after the second sweep, at row n (an action) and column b (a batch entry). -/
theorem final (c : Dev nD) (n : Fin 100000) (b : Fin 1024) :
    ((dat1 (F := Ideal) V c).arrAt 5 cfg1.N : (⟨S100000x1024, .f32⟩ : BufTy).Contents (Elt Ideal)) (ix2 n b)
      = Ideal.exp (klogit V c n b - mstat V c (ix2 0 b)) * Ideal.div 1 (dstat V c (ix2 0 b)) := by
  have h := congrFun (final_eq V c) (ix2 n b)
  rw [emitted_at] at h
  exact h

end Cert.KernelIdeal.Emit

end
-- ==== Proof.Logit.lean ====
/-
  The real logit of action n for batch row r: the state row times the weight column, plus the bias,
  l(r, n) = Σ_k s(r, k) · W(k, n) + β(n). Both programs compute this number (the kernel with the factors swapped, on
  transposed arrays), and everything downstream — the row maximum, the sum of exponentials, the softmax — is a function of it.
-/
import Idealize.ShloMosaic.PureOps.Ideal

noncomputable section

open scoped BigOperators

namespace Cert.Logit

/-- l(r, n) = Σ_k s(r, k) · W(k, n) + β(n). -/
def logit (sr : Fin 1024 → Fin 16 → ℝ) (Wr : Fin 16 → Fin 100000 → ℝ) (βr : Fin 100000 → ℝ) (r : Fin 1024) (n : Fin 100000) : ℝ :=
  (∑ k : Fin 16, sr r k * Wr k n) + βr n

end Cert.Logit

end
-- ==== Proof.KernelValue.lean ====
/-
  The kernel's result array as a function of the three argument arrays, when they hold reals s, W, β.
  Before the sweeps the host transposes the weights (wt(n, k) = W(k, n)) and the states (st(k, b) = s(b, k)) and reshapes the
  bias into a column (bt(n, 0) = β(n)); so the kernel's logit l(n, b) = Σ_k wt(n, k) · st(k, b) + bt(n, 0) is the real number
  Σ_k s(b, k) · W(k, n) + β(n), the products commuted. The first sweep leaves the column maxima and sums of exponentials, the
  second writes e^{l − max} · (1 / sum), and the host transposes the result back: entry (r, n) is the softmax of row r's
  logits at n.
-/
import proofs.«100738_g11304353923510_cont_sun_m_672_3_alg».proof.Proof.Gen.KernelIdeal.Frame
import proofs.«100738_g11304353923510_cont_sun_m_672_3_alg».proof.Proof.Operands
import proofs.«100738_g11304353923510_cont_sun_m_672_3_alg».proof.Proof.Stats
import proofs.«100738_g11304353923510_cont_sun_m_672_3_alg».proof.Proof.Emit
import proofs.«100738_g11304353923510_cont_sun_m_672_3_alg».proof.Proof.SoftmaxLaw
import proofs.«100738_g11304353923510_cont_sun_m_672_3_alg».proof.Proof.Logit
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open scoped BigOperators

namespace Cert.KernelIdeal.KernelValue

open Idealize.ShloMosaic Idealize.ShloMosaic.TcCoe Idealize.ShloMosaic.ValueIdx Idealize.ShloMosaic.StableHlo Idealize.SL.Sem
open Idealize.ShloMosaic.Pipeline (Dat)
open Cert.KernelIdeal Cert.KernelIdeal.Gen Cert.KernelIdeal.Operands

variable (m : (ℓ : Loc nD τ sig) → Buf (Elt Ideal) ℓ) (ρ : Dev nD → PrngReg)

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## What the host prepares before the sweeps -/

/-- The argument arrays at their literal shapes. -/
abbrev argS (c : Dev nD) : (⟨S1024x16, .f32⟩ : BufTy).Contents (Elt Ideal) := m ((c : Thread nD τ).loc main_arg0)
abbrev argW (c : Dev nD) : (⟨S16x100000, .f32⟩ : BufTy).Contents (Elt Ideal) := m ((c : Thread nD τ).loc main_arg1)
abbrev argB (c : Dev nD) : (⟨S100000, .f32⟩ : BufTy).Contents (Elt Ideal) := m ((c : Thread nD τ).loc main_arg2)

theorem wt_apply (c : Dev nD) (n : Fin 100000) (k : Fin 16) : wt (V1 m ρ) c (ix2 n k) = argW m c (ix2 k n) := by
  have e : wt (V1 m ρ) c = transpose S100000x16 [1, 0] (argW m c) transposes_S16x100000_S100000x16_1_0 := by
    show StableHlo.after hostOps0 (W0 m ρ c) (Proc.devRef .tc main_call0_v1) = _
    after_results
    rfl
  rw [e, transpose_ix2_apply]

theorem st_apply (c : Dev nD) (k : Fin 16) (b : Fin 1024) : st (V1 m ρ) c (ix2 k b) = argS m c (ix2 b k) := by
  have e : st (V1 m ρ) c = transpose S16x1024 [1, 0] (argS m c) transposes_S1024x16_S16x1024_1_0 := by
    show StableHlo.after hostOps0 (W0 m ρ c) (Proc.devRef .tc main_call0_v0) = _
    after_results
    rfl
  rw [e, transpose_ix2_apply]

theorem bt_apply (c : Dev nD) (n : Fin 100000) : bt (V1 m ρ) c (ix2 n (0 : Fin 1)) = argB m c (ix1 n) := by
  have e : bt (V1 m ρ) c = shapeCast S100000x1 (argB m c) shapeCasts_S100000_S100000x1 := by
    show StableHlo.after hostOps0 (W0 m ρ c) (Proc.devRef .tc main_call0_v2) = _
    after_results
    rfl
  rw [e]
  refine shapeCast_apply _ _ _ _ ?_
  rw [Shape.rowMajor_val_two, Shape.rowMajor_val_one]
  show n.val = n.val * 1 + 0
  omega

/-! ## The kernel's logit is the real logit -/

section Reals
variable (sr : Fin 1024 → Fin 16 → ℝ) (Wr : Fin 16 → Fin 100000 → ℝ) (βr : Fin 100000 → ℝ)

/-- The real logits in the kernel's layout: action first, batch column second. -/
abbrev lr : Fin 100000 → Fin 1024 → ℝ := fun n b => Cert.Logit.logit sr Wr βr b n

theorem klogit_V1 (c : Dev nD) (h0 : ∀ r k, argS m c (ix2 r k) = (sr r k : EReal)) (h1 : ∀ k n, argW m c (ix2 k n) = (Wr k n : EReal))
    (h2 : ∀ n, argB m c (ix1 n) = (βr n : EReal)) (n : Fin 100000) (b : Fin 1024) :
    klogit (V1 m ρ) c n b = (lr sr Wr βr n b : EReal) := by
  unfold klogit
  rw [bt_apply, h2]
  have e : (∑ k : Fin 16, wt (V1 m ρ) c (ix2 n k) * st (V1 m ρ) c (ix2 k b)) = ((∑ k : Fin 16, sr b k * Wr k n : ℝ) : EReal) := by
    rw [coe_sum]
    refine Finset.sum_congr rfl fun k _ => ?_
    rw [wt_apply, st_apply, h0, h1, EReal.coe_mul, mul_comm]
  rw [e, ← EReal.coe_add]
  rfl

/-! ## Through the first sweep -/

/-- The first sweep leaves its three input arrays as it found them. -/
theorem V2_in (c : Dev nD) (w : Fin cfg0.W) (hin : (cfg0.win w).isOut = false) :
    V2 m ρ c (Pipeline.arrRef spec0 w) = V1 m ρ c (Pipeline.arrRef spec0 w) :=
  (W2_arr m ρ c w).trans (((dat0 (V1 m ρ) c).arrAt_in w hin _).trans (A_eq0 (V1 m ρ) c w))

theorem klogit_V2 (c : Dev nD) (n : Fin 100000) (b : Fin 1024) : klogit (V2 m ρ) c n b = klogit (V1 m ρ) c n b := by
  unfold klogit
  rw [show wt (V2 m ρ) c = wt (V1 m ρ) c from V2_in m ρ c 0 rfl, show st (V2 m ρ) c = st (V1 m ρ) c from V2_in m ρ c 1 rfl,
    show bt (V2 m ρ) c = bt (V1 m ρ) c from V2_in m ρ c 2 rfl]

/-! ## The result -/

/-- Entry (r, n) of the kernel's result is the softmax of row r's logits at n. -/
theorem value (c : Dev nD) (h0 : ∀ r k, argS m c (ix2 r k) = (sr r k : EReal)) (h1 : ∀ k n, argW m c (ix2 k n) = (Wr k n : EReal))
    (h2 : ∀ n, argB m c (ix1 n) = (βr n : EReal)) (r : Fin 1024) (n : Fin 100000) :
    (W4 m ρ c (Proc.devRef .tc main_v0) : (⟨S1024x100000, .f32⟩ : BufTy).Contents (Elt Ideal)) (ix2 r n)
      = (Cert.SoftmaxLaw.softmax (fun n' => Cert.Logit.logit sr Wr βr r n') n : EReal) := by
  have eT : (W4 m ρ c (Proc.devRef .tc main_v0) : (⟨S1024x100000, .f32⟩ : BufTy).Contents (Elt Ideal))
      = transpose S1024x100000 [1, 0] ((dat1 (V2 m ρ) c).arrAt 5 cfg1.N : (⟨S100000x1024, .f32⟩ : BufTy).Contents (Elt Ideal))
          transposes_S100000x1024_S1024x100000_1_0 := by
    show StableHlo.after hostOps2 (W3 m ρ c) (Proc.devRef .tc main_v0) = _
    after_results
    exact congrArg (fun x => transpose S1024x100000 [1, 0] x transposes_S100000x1024_S1024x100000_1_0) (W3_arr m ρ c 5)
  rw [eT, transpose_ix2_apply, Cert.KernelIdeal.Emit.final (V2 m ρ) c n r, klogit_V2, klogit_V1 m ρ sr Wr βr c h0 h1 h2]
  obtain ⟨hm, hd⟩ := Cert.KernelIdeal.Stats.final (V1 m ρ) c (lr sr Wr βr) (klogit_V1 m ρ sr Wr βr c h0 h1 h2) r
  have em : mstat (V2 m ρ) c = ((dat0 (V1 m ρ) c).arrAt 3 cfg0.N : (⟨S8x1024, .f32⟩ : BufTy).Contents (Elt Ideal)) := W2_arr m ρ c 3
  have ed : dstat (V2 m ρ) c = ((dat0 (V1 m ρ) c).arrAt 4 cfg0.N : (⟨S8x1024, .f32⟩ : BufTy).Contents (Elt Ideal)) := W2_arr m ρ c 4
  rw [em, ed, hm, hd]
  exact Cert.SoftmaxLaw.emit_form (fun n' => lr sr Wr βr n' r) n

end Reals

end Cert.KernelIdeal.KernelValue

end
-- ==== Proof.RefValue.lean ====
/-
  The reference, read at an index: for argument arrays holding the reals s, W, β its result at (r, n) is the softmax over
  the actions of row r's logits l(r, ·), at n.
  Operation by operation: the logits (a contraction over the 16 state coordinates plus the broadcast bias), the row maximum
  (a max-reduce from −∞, joined once more with −∞), e^{l − max}, its row sum from 0, the quotient, the all-ones mask, the
  second row sum from 0 and the second quotient. Over the reals the second sum is 1.
-/
import proofs.«100738_g11304353923510_cont_sun_m_672_3_alg».proof.Proof.Gen.ReferenceIdeal.Read
import proofs.«100738_g11304353923510_cont_sun_m_672_3_alg».proof.Proof.SoftmaxLaw
import proofs.«100738_g11304353923510_cont_sun_m_672_3_alg».proof.Proof.Logit

noncomputable section

open scoped BigOperators

namespace Cert.RefValue

open Idealize.ShloMosaic Idealize.ShloMosaic.ValueIdx Cert.ReferenceIdeal Cert.ReferenceIdeal.Gen Cert.ReferenceIdeal.Read

/-! ## Small facts about the extended reals and the three constant words -/

/-- A finite sum of coerced reals is the coerced sum (induction on the index set; the coercion is additive). -/
theorem coe_sum {ι : Type*} (s : Finset ι) (g : ι → ℝ) :
    ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- The word 0xFF800000 (sign 1, exponent all ones, significand 0) denotes −∞. -/
theorem ofBits_neg_inf : Ideal.ofBits .f32 0xFF800000#32 = (⊥ : EReal) := by
  simp [Ideal.ofBits, Ideal.ieee]

/-- The word 0x3F800000 (exponent 127, significand 0) denotes 1. -/
theorem ofBits_one : Ideal.ofBits .f32 0x3F800000#32 = (1 : EReal) := by
  simp [Ideal.ofBits, Ideal.ieee, -EReal.coe_mul]; norm_num

/-! ## The index functions of the layout operations, at an index given by its coordinates -/

section Indices
variable (r : Fin 1024) (n : Fin 100000)

theorem lidx_v0 (k : Fin 16) : lidx_main_v0 (ix2 r n) k = ix2 r k :=
  funext fun a => Fin.ext (by match a with | ⟨0, _⟩ => rfl | ⟨1, _⟩ => rfl)
theorem ridx_v0 (k : Fin 16) : ridx_main_v0 (ix2 r n) k = ix2 k n :=
  funext fun a => Fin.ext (by match a with | ⟨0, _⟩ => rfl | ⟨1, _⟩ => rfl)
/-- The bias is broadcast along the rows: (r, n) reads β at n. -/
theorem idx_v1_v2 : idx_main_v1 (idx_main_v2 (ix2 r n)) = ix1 n :=
  funext fun a => Fin.ext (by match a with | ⟨0, _⟩ => rfl)
/-- A row statistic is broadcast along the row: (r, n) reads it at r. -/
theorem idx_v7_v8 : idx_main_v7 (idx_main_v8 (ix2 r n)) = ix1 r :=
  funext fun a => Fin.ext (by match a with | ⟨0, _⟩ => rfl)
theorem idx_v12_v13 : idx_main_v12 (idx_main_v13 (ix2 r n)) = ix1 r :=
  funext fun a => Fin.ext (by match a with | ⟨0, _⟩ => rfl)
theorem idx_v18_v19 : idx_main_v18 (idx_main_v19 (ix2 r n)) = ix1 r :=
  funext fun a => Fin.ext (by match a with | ⟨0, _⟩ => rfl)
/-- Row r's k-th summand is the array at (r, k). -/
theorem idx_v11 (k : Fin 100000) : idx_main_v11 (ix1 r) k = ix2 r k :=
  funext fun a => Fin.ext (by match a with | ⟨0, _⟩ => rfl | ⟨1, _⟩ => rfl)
theorem idx_v17 (k : Fin 100000) : idx_main_v17 (ix1 r) k = ix2 r k :=
  funext fun a => Fin.ext (by match a with | ⟨0, _⟩ => rfl | ⟨1, _⟩ => rfl)

end Indices

/-! ## The max-reduce along a row -/

/-- Dropping axis 1 of a 1024 × 100000 array leaves the 1024 rows. -/
theorem red1 : S1024x100000.Reduces [1] S1024 := by decide

/-- The index over row r with coordinate k inserted on the dropped axis is (r, k). -/
theorem lift_eq (r : Fin 1024) (k : Fin 100000) : red1.lift (ix1 r) k = ix2 r k :=
  funext fun c => Fin.ext (by
    show red1.liftVal (ix1 r) k.val c = (ix2 r k c).val
    -- axis 0 lies before the dropped axis and keeps the row's coordinate; axis 1 is the dropped axis and takes k
    match c with
    | ⟨0, _⟩ => first | rfl | simp [Shape.Reduces.liftVal]
    | ⟨1, _⟩ => first | rfl | simp [Shape.Reduces.liftVal])

/-- The fold over the dropped axis's coordinates, for any array y, is the fold over the row's entries y (r, k). -/
theorem fold_row (y : S1024x100000.Idx → EReal) (init : EReal) (r : Fin 1024) :
    (Finset.univ : Finset (Fin (S1024x100000.size 1))).fold (FloatOps.maximumf (F := Ideal) (φ := .f32)) init (y ∘ red1.lift (ix1 r))
      = (Finset.univ : Finset (Fin 100000)).fold max init (fun k => y (ix2 r k)) :=
  Finset.fold_congr (fun k _ => congrArg y (lift_eq r k))

/-! ## The reference's stages at (r, n), for argument arrays that hold the reals s, W, β -/

section Stages
variable (x0 : (⟨S1024x16, .f32⟩ : BufTy).Contents (Elt Ideal)) (x1 : (⟨S16x100000, .f32⟩ : BufTy).Contents (Elt Ideal))
  (x2 : (⟨S100000, .f32⟩ : BufTy).Contents (Elt Ideal))
  (sr : Fin 1024 → Fin 16 → ℝ) (Wr : Fin 16 → Fin 100000 → ℝ) (βr : Fin 100000 → ℝ)
  (h0 : ∀ r k, x0 (ix2 r k) = (sr r k : EReal)) (h1 : ∀ k n, x1 (ix2 k n) = (Wr k n : EReal)) (h2 : ∀ n, x2 (ix1 n) = (βr n : EReal))
  (r : Fin 1024) (n : Fin 100000)

/-- Row r's logits, l(r, ·). -/
abbrev row (sr : Fin 1024 → Fin 16 → ℝ) (Wr : Fin 16 → Fin 100000 → ℝ) (βr : Fin 100000 → ℝ) (r : Fin 1024) :
    Fin 100000 → ℝ := fun n' => Cert.Logit.logit sr Wr βr r n'

include h0 h1 in
/-- The contraction: Σ_k s(r, k) · W(k, n), a sum of products of reals. -/
theorem v0_at : val_main_v0 (F := Ideal) x0 x1 (ix2 r n) = ((∑ k : Fin 16, sr r k * Wr k n : ℝ) : EReal) := by
  rw [val_main_v0_apply]
  simp only [lidx_v0, ridx_v0, h0, h1, ← EReal.coe_mul]
  exact coe_sum _ _

include h2 in
/-- The broadcast bias: β(n). -/
theorem v2_at : val_main_v2 (F := Ideal) x2 (ix2 r n) = (βr n : EReal) := by
  rw [val_main_v2_apply, val_main_v1_apply, idx_v1_v2, h2]

include h0 h1 h2 in
/-- The logit: l(r, n) = Σ_k s(r, k) · W(k, n) + β(n). -/
theorem v3_at : val_main_v3 (F := Ideal) x0 x1 x2 (ix2 r n) = (row sr Wr βr r n : EReal) := by
  rw [val_main_v3_apply, v0_at x0 x1 sr Wr h0 h1, v2_at x2 βr h2, Ideal.addf_def, ← EReal.coe_add]
  rfl

include h0 h1 h2 in
/-- The row maximum: the fold of max from −∞ over the row's logits. -/
theorem v4_at : val_main_v4 (F := Ideal) x0 x1 x2 (ix1 r) = (Cert.SoftmaxLaw.rmax (row sr Wr βr r) : EReal) := by
  unfold val_main_v4
  refine (Host.reduce_eq_fold_single _ _ _ _ red1 _ _).trans ?_
  refine (fold_row _ _ r).trans ?_
  simp only [v3_at x0 x1 x2 sr Wr βr h0 h1 h2]
  rw [val_main_cst_apply, Ideal.ofBits_def, ofBits_neg_inf]
  exact Cert.SoftmaxLaw.fold_max_coe (row sr Wr βr r)

include h0 h1 h2 in
/-- Joined once more with −∞ it is unchanged. -/
theorem v6_at : val_main_v6 (F := Ideal) x0 x1 x2 (ix1 r) = (Cert.SoftmaxLaw.rmax (row sr Wr βr r) : EReal) := by
  rw [val_main_v6_apply, val_main_v5_apply, val_main_cst_0_apply, v4_at x0 x1 x2 sr Wr βr h0 h1 h2, Ideal.maximumf_def,
    Ideal.ofBits_def, ofBits_neg_inf]
  exact max_eq_right bot_le

include h0 h1 h2 in
/-- The row maximum broadcast back along the row. -/
theorem v8_at : val_main_v8 (F := Ideal) x0 x1 x2 (ix2 r n) = (Cert.SoftmaxLaw.rmax (row sr Wr βr r) : EReal) := by
  rw [val_main_v8_apply, val_main_v7_apply, idx_v7_v8, v6_at x0 x1 x2 sr Wr βr h0 h1 h2]

include h0 h1 h2 in
/-- e^{l(r, n) − max}. -/
theorem v10_at : val_main_v10 (F := Ideal) x0 x1 x2 (ix2 r n)
    = Ideal.exp ((row sr Wr βr r n : EReal) - (Cert.SoftmaxLaw.rmax (row sr Wr βr r) : EReal)) := by
  rw [val_main_v10_apply, val_main_v9_apply, v3_at x0 x1 x2 sr Wr βr h0 h1 h2, v8_at x0 x1 x2 sr Wr βr h0 h1 h2,
    Ideal.subf_def, Ideal.hostUnary_exp_def]

include h0 h1 h2 in
/-- The first row sum, from 0. -/
theorem v11_at : val_main_v11 (F := Ideal) x0 x1 x2 (ix1 r)
    = (0 : EReal) + ∑ k, Ideal.exp ((row sr Wr βr r k : EReal) - (Cert.SoftmaxLaw.rmax (row sr Wr βr r) : EReal)) := by
  rw [val_main_v11_apply, val_main_cst_1_apply, Ideal.ofBits_def, Ideal.ofBits_zero_f32]
  simp only [idx_v11, v10_at x0 x1 x2 sr Wr βr h0 h1 h2]

include h0 h1 h2 in
/-- The first row sum broadcast back along the row. -/
theorem v13_at : val_main_v13 (F := Ideal) x0 x1 x2 (ix2 r n)
    = (0 : EReal) + ∑ k, Ideal.exp ((row sr Wr βr r k : EReal) - (Cert.SoftmaxLaw.rmax (row sr Wr βr r) : EReal)) := by
  rw [val_main_v13_apply, val_main_v12_apply, idx_v12_v13, v11_at x0 x1 x2 sr Wr βr h0 h1 h2]

include h0 h1 h2 in
/-- The all-ones mask times the first quotient. -/
theorem v16_at : val_main_v16 (F := Ideal) x0 x1 x2 (ix2 r n)
    = (1 : EReal) * Ideal.div (Ideal.exp ((row sr Wr βr r n : EReal) - (Cert.SoftmaxLaw.rmax (row sr Wr βr r) : EReal)))
        ((0 : EReal) + ∑ k, Ideal.exp ((row sr Wr βr r k : EReal) - (Cert.SoftmaxLaw.rmax (row sr Wr βr r) : EReal))) := by
  rw [val_main_v16_apply, val_main_v15_apply, val_main_cst_2_apply, val_main_v14_apply,
    v10_at x0 x1 x2 sr Wr βr h0 h1 h2, v13_at x0 x1 x2 sr Wr βr h0 h1 h2,
    Ideal.ofBits_def, ofBits_one, Ideal.hostDivf_def, Ideal.mulf_def]

include h0 h1 h2 in
/-- The second row sum, from 0, broadcast back along the row. -/
theorem v19_at : val_main_v19 (F := Ideal) x0 x1 x2 (ix2 r n)
    = (0 : EReal) + ∑ k, (1 : EReal) * Ideal.div (Ideal.exp ((row sr Wr βr r k : EReal) - (Cert.SoftmaxLaw.rmax (row sr Wr βr r) : EReal)))
        ((0 : EReal) + ∑ k', Ideal.exp ((row sr Wr βr r k' : EReal) - (Cert.SoftmaxLaw.rmax (row sr Wr βr r) : EReal))) := by
  rw [val_main_v19_apply, val_main_v18_apply, idx_v18_v19, val_main_v17_apply, val_main_cst_3_apply, Ideal.ofBits_def,
    Ideal.ofBits_zero_f32]
  simp only [idx_v17, v16_at x0 x1 x2 sr Wr βr h0 h1 h2]

end Stages

/-- The reference's result at (r, n) is the softmax of row r's logits at n. -/
theorem value (x0 : (⟨S1024x16, .f32⟩ : BufTy).Contents (Elt Ideal)) (x1 : (⟨S16x100000, .f32⟩ : BufTy).Contents (Elt Ideal))
    (x2 : (⟨S100000, .f32⟩ : BufTy).Contents (Elt Ideal))
    (sr : Fin 1024 → Fin 16 → ℝ) (Wr : Fin 16 → Fin 100000 → ℝ) (βr : Fin 100000 → ℝ)
    (h0 : ∀ r k, x0 (ix2 r k) = (sr r k : EReal)) (h1 : ∀ k n, x1 (ix2 k n) = (Wr k n : EReal)) (h2 : ∀ n, x2 (ix1 n) = (βr n : EReal))
    (r : Fin 1024) (n : Fin 100000) :
    val_main_v20 (F := Ideal) x0 x1 x2 (ix2 r n)
      = (Cert.SoftmaxLaw.softmax (fun n' => Cert.Logit.logit sr Wr βr r n') n : EReal) := by
  rw [val_main_v20_apply, v16_at x0 x1 x2 sr Wr βr h0 h1 h2, v19_at x0 x1 x2 sr Wr βr h0 h1 h2, Ideal.hostDivf_def]
  exact Cert.SoftmaxLaw.ref_form (row sr Wr βr r) n

end Cert.RefValue

end
-- ==== Proof.Finite.lean ====
/-
  The precondition read: every entry of the three argument arrays is a real number.
  The printed predicate is the conjunction of three `all(|x| < +∞)`; an extended real whose absolute value is below +∞
  is neither +∞ nor −∞, so it is the coercion of a real.
-/
import proofs.«100738_g11304353923510_cont_sun_m_672_3_alg».proof.Pre_finite_inputs
import proofs.«100738_g11304353923510_cont_sun_m_672_3_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx Cert.Pre_finite_inputs Cert.Pre_finite_inputs.Gen

/-- The scalar shape has exactly one index: a function out of the empty set of axes. -/
instance subsingleton_scalar_idx : Subsingleton S_.Idx := ⟨fun _ _ => funext fun d => d.elim0⟩

/-- The word 0x7F800000 (sign 0, exponent all ones, significand 0) denotes +∞. -/
theorem ofBits_pos_inf : Ideal.ofBits .f32 0x7F800000#32 = (⊤ : EReal) := by
  simp [Ideal.ofBits, Ideal.ieee]

/-- |x| = max x (−x) < +∞ excludes both infinities: |+∞| = |−∞| = +∞. What is left is a real. -/
theorem real_of_abs_lt_top (x : EReal) (h : max x (-x) < ⊤) : ∃ r : ℝ, x = (r : EReal) := by
  induction x using EReal.rec with
  | bot =>
    -- max ⊥ (−⊥) = max ⊥ ⊤ = ⊤, which is not below ⊤
    rw [EReal.neg_bot, max_eq_right bot_le] at h
    exact absurd h (lt_irrefl _)
  | coe r => exact ⟨r, rfl⟩
  | top =>
    -- max ⊤ (−⊤) = ⊤
    rw [max_eq_left le_top] at h
    exact absurd h (lt_irrefl _)

/-- One entry of a compared array: the bit "|x| < +∞" being set says x is a real. -/
theorem real_of_bit (x : EReal)
    (h : Ideal.cmp .olt (max x (-x)) (Ideal.ofBits .f32 0x7F800000#32) = 1#1) : ∃ r : ℝ, x = (r : EReal) := by
  rw [ofBits_pos_inf] at h
  apply real_of_abs_lt_top
  -- the comparison's bit is ofBool (decide (|x| < ⊤))
  by_contra hn
  have : Ideal.cmp .olt (max x (-x)) (⊤ : EReal) = 0#1 := by
    show BitVec.ofBool (decide (max x (-x) < ⊤)) = 0#1
    rw [decide_eq_false hn]; rfl
  rw [this] at h
  exact absurd h (by decide)

/-- Under the precondition each argument array holds reals. -/
theorem real_of_pre (x0 : FVec Ideal S1024x16 .f32) (x1 : FVec Ideal S16x100000 .f32) (x2 : FVec Ideal S100000 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  -- the predicate's one word, at the scalar's one index
  have e := congrFun h ValueIdx.ix0
  dsimp only [Cert.Pre_finite_inputs.fn] at e
  -- (all₀ ∧ all₁) ∧ all₂ = 1 splits into the three reductions being 1
  obtain ⟨e01, e2⟩ := IntOp.andi_eq_one.1 e
  obtain ⟨e0, e1⟩ := IntOp.andi_eq_one.1 e01
  refine ⟨fun i => ?_, fun i => ?_, fun i => ?_⟩
  · exact real_of_bit (x0 i) (Host.reduce_andi_all _ _ _ _ _ e0 i)
  · exact real_of_bit (x1 i) (Host.reduce_andi_all _ _ _ _ _ e1 i)
  · exact real_of_bit (x2 i) (Host.reduce_andi_all _ _ _ _ _ e2 i)

end Cert.Finite

end
-- ==== Proof.lean ====
/-
  The kernel computes probs = softmax(s·W + β) over 100000 actions for 1024 batch rows in two sweeps over the action axis, in
  the transposed layout: a first sweep that keeps, per batch column, the running maximum m of the logits and the running sum
  d of e^{logit − m} ("online" softmax: a new tile rescales d by e^{m_old − m_new}), and a second sweep that writes
  e^{logit − m} · (1 / d). The reference computes softmax by its definition (row maximum, exponentials, row sum, quotient),
  multiplies by an all-ones mask and divides by the row sum once more.

  Under the precondition every input is a real, so every logit l(r, n) = Σ_k s(r, k) · W(k, n) + β(n) is a real and both
  programs are read over the reals:
   * the first sweep's recurrence ends at m = max_n l(r, n) and d = Σ_n e^{l(r, n) − m}, because e^{a−b} · e^{b−c} = e^{a−c};
   * the reference's second normalisation divides by Σ_n e^{l − m} / d = 1.
  Both results are e^{l(r, n) − m} / d at every (r, n).

  The three frames: the two kernel programs by their launch certificates, the reference by its run with the result dropped.
  The idealization rewrote nothing, so there is nothing to preserve. The value claim: the kernel's run with its result array
  named, that array read back through the two sweeps, and the reference's run read one operation at a time.
-/
import proofs.«100738_g11304353923510_cont_sun_m_672_3_alg».proof.Defs
import proofs.«100738_g11304353923510_cont_sun_m_672_3_alg».proof.Proof.Gen.Kernel
import proofs.«100738_g11304353923510_cont_sun_m_672_3_alg».proof.Proof.Gen.Kernel.Skeleton
import proofs.«100738_g11304353923510_cont_sun_m_672_3_alg».proof.Proof.Gen.Kernel.Launch
import proofs.«100738_g11304353923510_cont_sun_m_672_3_alg».proof.Proof.Gen.Kernel.Points
import proofs.«100738_g11304353923510_cont_sun_m_672_3_alg».proof.Proof.Gen.Kernel.Frame
import proofs.«100738_g11304353923510_cont_sun_m_672_3_alg».proof.Proof.Gen.KernelIdeal
import proofs.«100738_g11304353923510_cont_sun_m_672_3_alg».proof.Proof.Gen.KernelIdeal.Skeleton
import proofs.«100738_g11304353923510_cont_sun_m_672_3_alg».proof.Proof.Gen.KernelIdeal.Launch
import proofs.«100738_g11304353923510_cont_sun_m_672_3_alg».proof.Proof.Gen.KernelIdeal.Points
import proofs.«100738_g11304353923510_cont_sun_m_672_3_alg».proof.Proof.Gen.KernelIdeal.Frame
import proofs.«100738_g11304353923510_cont_sun_m_672_3_alg».proof.Proof.Gen.ReferenceIdeal
import proofs.«100738_g11304353923510_cont_sun_m_672_3_alg».proof.Proof.Gen.Pre_finite_inputs
import proofs.«100738_g11304353923510_cont_sun_m_672_3_alg».proof.Proof.Gen.ReferenceIdeal.Run
import proofs.«100738_g11304353923510_cont_sun_m_672_3_alg».proof.Proof.Gen.ReferenceIdeal.Read
import proofs.«100738_g11304353923510_cont_sun_m_672_3_alg».proof.Proof.RunValue
import proofs.«100738_g11304353923510_cont_sun_m_672_3_alg».proof.Proof.KernelValue
import proofs.«100738_g11304353923510_cont_sun_m_672_3_alg».proof.Proof.RefValue
import proofs.«100738_g11304353923510_cont_sun_m_672_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- From memories agreeing on the arguments both programs end with the same result: entry (r, n) of either is the softmax of
    row r's real logits at n. The common result is taken to be the kernel's own array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W4 m ρ c (Proc.devRef .tc Cert.KernelIdeal.main_v0), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2⟩ := Cert.Finite.real_of_pre _ _ _ (hpre c)
  choose s' hs using f0
  choose W' hW using f1
  choose β' hβ using f2
  rw [Cert.ReferenceIdeal.Read.val_main_v20_eq, (hagree c).1, (hagree c).2.1, (hagree c).2.2]
  funext i
  obtain ⟨r, n, rfl⟩ : ∃ (r : Fin 1024) (n : Fin 100000), i = ix2 r n := ⟨i 0, i 1, eq_ix2 i⟩
  exact (Cert.RefValue.value _ _ _ (fun r k => s' (ix2 r k)) (fun k n => W' (ix2 k n)) (fun n => β' (ix1 n))
      (fun r k => hs _) (fun k n => hW _) (fun n => hβ _) r n).trans
    (Cert.KernelIdeal.KernelValue.value m ρ (fun r k => s' (ix2 r k)) (fun k n => W' (ix2 k n)) (fun n => β' (ix1 n)) c
      (fun r k => hs _) (fun k n => hW _) (fun n => hβ _) r n).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
